-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S128x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x256 : Shape := ⟨4, ![16, 64, 64, 256]⟩
abbrev S_ : Shape := ⟨0, ![]⟩

class Facts : Prop where
  bcast_S_S16x64x64x256 : S_.BroadcastsInDim S16x64x64x256 (![] : Fin 0 → Fin S16x64x64x256.rank)
  reducesTo_S16x64x64x256_S_d0_1_2_3 : S16x64x64x256.ReducesTo [0, 1, 2, 3] S_
  h_S_ : 0 < S_.numel

variable [Facts]

def fn {F : FTy → Type} [FloatOps F] (main_arg0 : FVec F S16x64x64x256 .f32) (main_arg1 : IVec S16x64x64x256 32) : IVec S_ 1 :=
  let main_v0 : FVec F S16x64x64x256 .f32 := Host.absf main_arg0
  let main_cst : FVec F S_ .f32 := constant S_ .f32 0x7F800000#32
  let main_v1 : FVec F S16x64x64x256 .f32 := broadcastInDim S16x64x64x256 ![] bcast_S_S16x64x64x256 main_cst
  let main_v2 : IVec S16x64x64x256 1 := cmpf .olt main_v0 main_v1
  let main_c : IVec S_ 1 := constantI S_ 1 1#1
  let main_v3 : IVec S_ 1 := (fun x v => Host.reduce IntOp.andi x v reducesTo_S16x64x64x256_S_d0_1_2_3 h_S_) main_v2 main_c
  let main_c_0 : IVec S_ 32 := constantI S_ 32 0#32
  let main_v4 : IVec S16x64x64x256 32 := broadcastInDim S16x64x64x256 ![] bcast_S_S16x64x64x256 main_c_0
  let main_v5 : IVec S16x64x64x256 1 := cmpi .sge main_arg1 main_v4
  let main_c_1 : IVec S_ 1 := constantI S_ 1 1#1
  let main_v6 : IVec S_ 1 := (fun x v => Host.reduce IntOp.andi x v reducesTo_S16x64x64x256_S_d0_1_2_3 h_S_) main_v5 main_c_1
  let main_v7 : IVec S_ 1 := andi main_v3 main_v6
  main_v7
-- ==== Kernel.lean ====
abbrev S16x64x64x256 : Shape := ⟨4, ![16, 64, 64, 256]⟩
abbrev S16x128x128x256 : Shape := ⟨4, ![16, 128, 128, 256]⟩
abbrev S1x2x64x128 : Shape := ⟨4, ![1, 2, 64, 128]⟩
abbrev S1x128x128x128 : Shape := ⟨4, ![1, 128, 128, 128]⟩
abbrev S128x128x128 : Shape := ⟨3, ![128, 128, 128]⟩
abbrev S2x64x128 : Shape := ⟨3, ![2, 64, 128]⟩
abbrev S128x128 : Shape := ⟨2, ![128, 128]⟩
abbrev S128x1x128 : Shape := ⟨3, ![128, 1, 128]⟩
abbrev S128x128x1 : Shape := ⟨3, ![128, 128, 1]⟩

abbrev nBuf : Space → Nat
  | .hbm => 3
  | .vmem => 7
  | .smem => 0
  | _ => 0

abbrev bufTy : (tb : Table) → Fin (tcTables nBuf tb) → BufTy
  | .hbm, ⟨0, _⟩ => ⟨S16x64x64x256, .f32⟩
  | .hbm, ⟨1, _⟩ => ⟨S16x64x64x256, .i32⟩
  | .hbm, ⟨2, _⟩ => ⟨S16x128x128x256, .f32⟩
  | .local _ .vmem, ⟨0, _⟩ => ⟨S1x2x64x128, .f32⟩
  | .local _ .vmem, ⟨1, _⟩ => ⟨S1x2x64x128, .f32⟩
  | .local _ .vmem, ⟨2, _⟩ => ⟨S1x2x64x128, .i32⟩
  | .local _ .vmem, ⟨3, _⟩ => ⟨S1x2x64x128, .i32⟩
  | .local _ .vmem, ⟨4, _⟩ => ⟨S1x128x128x128, .f32⟩
  | .local _ .vmem, ⟨5, _⟩ => ⟨S1x128x128x128, .f32⟩
  | .local _ .vmem, ⟨6, _⟩ => ⟨S128x128x128, .f32⟩
  | _, _ => ⟨S16x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 32], ![false, false, false]⟩

def k0_cond2 (i : grid0.Coords) : BitVec 1 :=
  let arg2 : BitVec 32 := BitVec.ofNat 32 (i 2).val
  let c31_i32 : BitVec 32 := 31#32
  let v56 : BitVec 1 := Scalar.cmpi .eq arg2 c31_i32
  let v57 : BitVec 32 := Scalar.extui v56
  let c0_i32_21 : BitVec 32 := 0#32
  let v58 : BitVec 1 := Scalar.cmpi .ne v57 c0_i32_21
  v58

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x2x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S128x128x128_S128x128x128_0_0_0 : ∀ a, (![0, 0, 0] : Fin 3 → Nat) a + S128x128x128.size a ≤ S128x128x128.size a
  h_S128x128x128 : 0 < S128x128x128.numel
  shapeCasts_S128x128x128_S128x128x128 : S128x128x128.ShapeCasts S128x128x128
  inb_S1x2x64x128_S1x2x64x128_0_0_0_0 : ∀ a, (![0, 0, 0, 0] : Fin 4 → Nat) a + S1x2x64x128.size a ≤ S1x2x64x128.size a
  h_S1x2x64x128 : 0 < S1x2x64x128.numel
  shapeCasts_S1x2x64x128_S2x64x128 : S1x2x64x128.ShapeCasts S2x64x128
  shapeCasts_S2x64x128_S128x128 : S2x64x128.ShapeCasts S128x128
  transposes_S128x128_p1_0_S128x128 : S128x128.Transposes [1, 0] S128x128
  bitsLt_bf16_f32 : FTy.bits .bf16 < FTy.bits .f32
  shapeCasts_S128x128_S128x1x128 : S128x128.ShapeCasts S128x1x128
  iota_S128x128x1_d1_w32 : S128x128x1.Iotas .tc 32 [1]
  iota_S128x1x128_d2_w32 : S128x1x128.Iotas .tc 32 [2]
  broadcasts_S128x1x128_S128x128x128 : S128x1x128.Broadcasts S128x128x128
  broadcasts_S128x128x1_S128x128x128 : S128x128x1.Broadcasts S128x128x128
  natLt_1_32 : 1 < 32
  shapeCasts_S128x128_S128x128x1 : S128x128.ShapeCasts S128x128x1
  transposes_S128x128x128_p1_2_0_S128x128x128 : S128x128x128.Transposes [1, 2, 0] S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  dot_S128x128x128_S128x128x128_S128x128x128_2_1_1_2_0_0_wf : DotDims.WF S128x128x128 S128x128x128 S128x128x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x64x128.size a ≤ S16x64x64x256.size a
  hwx0_0 : ∀ i : grid0.Coords, EltTy.bits .f32 = 32 ∨ (Rect.block (s := S16x64x64x256) S1x2x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x64x128.size a ≤ S16x64x64x256.size a
  hwx0_1 : ∀ i : grid0.Coords, EltTy.bits .i32 = 32 ∨ (Rect.block (s := S16x64x64x256) S1x2x64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128x128.size a ≤ S16x128x128x256.size a
  hwx0_2 : ∀ i : grid0.Coords, EltTy.bits .f32 = 32 ∨ (Rect.block (s := S16x128x128x256) S1x128x128x128.size (cc0_transform_2 i) (hinb0_2 i)).WholeWords (EltTy.packing .f32)

variable [Facts₀]

def dot_S128x128x128_S128x128x128_S128x128x128_2_1_1_2_0_0 : DotDims S128x128x128 S128x128x128 S128x128x128 where
  lhsContracting := [2]
  rhsContracting := [1]
  lhsNonContracting := [1]
  rhsNonContracting := [2]
  lhsBatch := [0]
  rhsBatch := [0]
  wf := dot_S128x128x128_S128x128x128_S128x128x128_2_1_1_2_0_0_wf

abbrev win0_0 : Pipeline.Window sig grid0 :=
  Pipeline.Window.ofSpec (Memref.whole main_arg0) S1x2x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x64x64x256 : Shape := ⟨4, ![16, 64, 64, 256]⟩
abbrev S_ : Shape := ⟨0, ![]⟩
abbrev S16 : Shape := ⟨1, ![16]⟩
abbrev S16x1x1x1 : Shape := ⟨4, ![16, 1, 1, 1]⟩
abbrev S256 : Shape := ⟨1, ![256]⟩
abbrev S16x128x128x256 : Shape := ⟨4, ![16, 128, 128, 256]⟩
abbrev S16x64x64x256x1 : Shape := ⟨5, ![16, 64, 64, 256, 1]⟩
abbrev S16x64x64x256x4 : Shape := ⟨5, ![16, 64, 64, 256, 4]⟩

abbrev nBuf : Space → Nat
  | .hbm => 101
  | .vmem => 0
  | .smem => 0
  | _ => 0

abbrev bufTy : (tb : Table) → Fin (tcTables nBuf tb) → BufTy
  | .hbm, ⟨0, _⟩ => ⟨S16x64x64x256, .f32⟩
  | .hbm, ⟨1, _⟩ => ⟨S16x64x64x256, .i32⟩
  | .hbm, ⟨2, _⟩ => ⟨S_, .i32⟩
  | .hbm, ⟨3, _⟩ => ⟨S_, .i32⟩
  | .hbm, ⟨4, _⟩ => ⟨S16x64x64x256, .i32⟩
  | .hbm, ⟨5, _⟩ => ⟨S16x64x64x256, .i32⟩
  | .hbm, ⟨6, _⟩ => ⟨S16x64x64x256, .i32⟩
  | .hbm, ⟨7, _⟩ => ⟨S_, .i32⟩
  | .hbm, ⟨8, _⟩ => ⟨S16x64x64x256, .i32⟩
  | .hbm, ⟨9, _⟩ => ⟨S16x64x64x256, .i1⟩
  | .hbm, ⟨10, _⟩ => ⟨S16x64x64x256, .i32⟩
  | .hbm, ⟨11, _⟩ => ⟨S16x64x64x256, .i32⟩
  | .hbm, ⟨12, _⟩ => ⟨S_, .i32⟩
  | .hbm, ⟨13, _⟩ => ⟨S16x64x64x256, .i32⟩
  | .hbm, ⟨14, _⟩ => ⟨S16x64x64x256, .i1⟩
  | .hbm, ⟨15, _⟩ => ⟨S16x64x64x256, .i1⟩
  | .hbm, ⟨16, _⟩ => ⟨S_, .i32⟩
  | .hbm, ⟨17, _⟩ => ⟨S16x64x64x256, .i32⟩
  | .hbm, ⟨18, _⟩ => ⟨S16x64x64x256, .i32⟩
  | .hbm, ⟨19, _⟩ => ⟨S16x64x64x256, .i32⟩
  | .hbm, ⟨20, _⟩ => ⟨S_, .i32⟩
  | .hbm, ⟨21, _⟩ => ⟨S_, .i32⟩
  | .hbm, ⟨22, _⟩ => ⟨S16x64x64x256, .i32⟩
  | .hbm, ⟨23, _⟩ => ⟨S16x64x64x256, .i32⟩
  | .hbm, ⟨24, _⟩ => ⟨S16x64x64x256, .i32⟩
  | .hbm, ⟨25, _⟩ => ⟨S_, .i32⟩
  | .hbm, ⟨26, _⟩ => ⟨S16x64x64x256, .i32⟩
  | .hbm, ⟨27, _⟩ => ⟨S16x64x64x256, .i1⟩
  | .hbm, ⟨28, _⟩ => ⟨S16x64x64x256, .i32⟩
  | .hbm, ⟨29, _⟩ => ⟨S16x64x64x256, .i32⟩
  | .hbm, ⟨30, _⟩ => ⟨S_, .i32⟩
  | .hbm, ⟨31, _⟩ => ⟨S16x64x64x256, .i32⟩
  | .hbm, ⟨32, _⟩ => ⟨S16x64x64x256, .i1⟩
  | .hbm, ⟨33, _⟩ => ⟨S16x64x64x256, .i1⟩
  | .hbm, ⟨34, _⟩ => ⟨S_, .i32⟩
  | .hbm, ⟨35, _⟩ => ⟨S16x64x64x256, .i32⟩
  | .hbm, ⟨36, _⟩ => ⟨S16x64x64x256, .i32⟩
  | .hbm, ⟨37, _⟩ => ⟨S16x64x64x256, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S16x64x64x256, .i32⟩
  | .hbm, ⟨45, _⟩ => ⟨S16x64x64x256, .i32⟩
  | .hbm, ⟨46, _⟩ => ⟨S_, .i32⟩
  | .hbm, ⟨47, _⟩ => ⟨S16x64x64x256, .i32⟩
  | .hbm, ⟨48, _⟩ => ⟨S16x64x64x256, .i1⟩
  | .hbm, ⟨49, _⟩ => ⟨S_, .i32⟩
  | .hbm, ⟨50, _⟩ => ⟨S16x64x64x256, .i32⟩
  | .hbm, ⟨51, _⟩ => ⟨S16x64x64x256, .i1⟩
  | .hbm, ⟨52, _⟩ => ⟨S_, .i32⟩
  | .hbm, ⟨53, _⟩ => ⟨S_, .i1⟩
  | .hbm, ⟨54, _⟩ => ⟨S16x64x64x256, .i1⟩
  | .hbm, ⟨55, _⟩ => ⟨S16x64x64x256, .i1⟩
  | .hbm, ⟨56, _⟩ => ⟨S16x64x64x256, .i1⟩
  | .hbm, ⟨57, _⟩ => ⟨S16x64x64x256, .i32⟩
  | .hbm, ⟨58, _⟩ => ⟨S16x64x64x256, .i32⟩
  | .hbm, ⟨59, _⟩ => ⟨S16x64x64x256, .i32⟩
  | .hbm, ⟨60, _⟩ => ⟨S16, .i32⟩
  | .hbm, ⟨61, _⟩ => ⟨S16x1x1x1, .i32⟩
  | .hbm, ⟨62, _⟩ => ⟨S256, .i32⟩
  | .hbm, ⟨63, _⟩ => ⟨S_, .f32⟩
  | .hbm, ⟨64, _⟩ => ⟨S16x128x128x256, .f32⟩
  | .hbm, ⟨65, _⟩ => ⟨S_, .i32⟩
  | .hbm, ⟨66, _⟩ => ⟨S16x1x1x1, .i32⟩
  | .hbm, ⟨67, _⟩ => ⟨S16x1x1x1, .i1⟩
  | .hbm, ⟨68, _⟩ => ⟨S_, .i32⟩
  | .hbm, ⟨69, _⟩ => ⟨S16x1x1x1, .i32⟩
  | .hbm, ⟨70, _⟩ => ⟨S16x1x1x1, .i32⟩
  | .hbm, ⟨71, _⟩ => ⟨S16x1x1x1, .i32⟩
  | .hbm, ⟨72, _⟩ => ⟨S_, .i32⟩
  | .hbm, ⟨73, _⟩ => ⟨S16x64x64x256, .i32⟩
  | .hbm, ⟨74, _⟩ => ⟨S16x64x64x256, .i1⟩
  | .hbm, ⟨75, _⟩ => ⟨S_, .i32⟩
  | .hbm, ⟨76, _⟩ => ⟨S16x64x64x256, .i32⟩
  | .hbm, ⟨77, _⟩ => ⟨S16x64x64x256, .i32⟩
  | .hbm, ⟨78, _⟩ => ⟨S16x64x64x256, .i32⟩
  | .hbm, ⟨79, _⟩ => ⟨S_, .i32⟩
  | .hbm, ⟨80, _⟩ => ⟨S16x64x64x256, .i32⟩
  | .hbm, ⟨81, _⟩ => ⟨S16x64x64x256, .i1⟩
  | .hbm, ⟨82, _⟩ => ⟨S_, .i32⟩
  | .hbm, ⟨83, _⟩ => ⟨S16x64x64x256, .i32⟩
  | .hbm, ⟨84, _⟩ => ⟨S16x64x64x256, .i32⟩
  | .hbm, ⟨85, _⟩ => ⟨S16x64x64x256, .i32⟩
  | .hbm, ⟨86, _⟩ => ⟨S_, .i32⟩
  | .hbm, ⟨87, _⟩ => ⟨S256, .i32⟩
  | .hbm, ⟨88, _⟩ => ⟨S256, .i1⟩
  | .hbm, ⟨89, _⟩ => ⟨S_, .i32⟩
  | .hbm, ⟨90, _⟩ => ⟨S256, .i32⟩
  | .hbm, ⟨91, _⟩ => ⟨S256, .i32⟩
  | .hbm, ⟨92, _⟩ => ⟨S256, .i32⟩
  | .hbm, ⟨93, _⟩ => ⟨S16x64x64x256, .i32⟩
  | .hbm, ⟨94, _⟩ => ⟨S16x64x64x256, .i32⟩
  | .hbm, ⟨95, _⟩ => ⟨S16x64x64x256x1, .i32⟩
  | .hbm, ⟨96, _⟩ => ⟨S16x64x64x256x1, .i32⟩
  | .hbm, ⟨97, _⟩ => ⟨S16x64x64x256x1, .i32⟩
  | .hbm, ⟨98, _⟩ => ⟨S16x64x64x256x1, .i32⟩
  | .hbm, ⟨99, _⟩ => ⟨S16x64x64x256x4, .i32⟩
  | .hbm, ⟨100, _⟩ => ⟨S16x128x128x256, .f32⟩
  | _, _ => ⟨S16x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v1 : Ref sig .tc := ⟨.hbm, 37, rfl⟩
abbrev main_c_1 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_v5 : Ref sig .tc := ⟨.hbm, 47, rfl⟩
abbrev main_call2_v6 : Ref sig .tc := ⟨.hbm, 48, rfl⟩
abbrev main_call2_c_2 : Ref sig .tc := ⟨.hbm, 49, rfl⟩
abbrev main_call2_v7 : Ref sig .tc := ⟨.hbm, 50, rfl⟩
abbrev main_call2_v8 : Ref sig .tc := ⟨.hbm, 51, rfl⟩
abbrev main_call2_c_3 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_cst : Ref sig .tc := ⟨.hbm, 63, rfl⟩
abbrev main_v6 : Ref sig .tc := ⟨.hbm, 64, rfl⟩
abbrev main_c_2 : Ref sig .tc := ⟨.hbm, 65, rfl⟩
abbrev main_v7 : Ref sig .tc := ⟨.hbm, 66, rfl⟩
abbrev main_v8 : Ref sig .tc := ⟨.hbm, 67, rfl⟩
abbrev main_c_3 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_c_4 : Ref sig .tc := ⟨.hbm, 72, rfl⟩
abbrev main_v12 : Ref sig .tc := ⟨.hbm, 73, rfl⟩
abbrev main_v13 : Ref sig .tc := ⟨.hbm, 74, rfl⟩
abbrev main_c_5 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_c_6 : Ref sig .tc := ⟨.hbm, 79, rfl⟩
abbrev main_v17 : Ref sig .tc := ⟨.hbm, 80, rfl⟩
abbrev main_v18 : Ref sig .tc := ⟨.hbm, 81, rfl⟩
abbrev main_c_7 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_c_8 : Ref sig .tc := ⟨.hbm, 86, rfl⟩
abbrev main_v22 : Ref sig .tc := ⟨.hbm, 87, rfl⟩
abbrev main_v23 : Ref sig .tc := ⟨.hbm, 88, rfl⟩
abbrev main_c_9 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩

abbrev nD : Nat := 1
abbrev τ : Topo := Topo.v7x

variable {F : FTy → Type} [FloatOps F]

class Facts₀ : Prop where
  bcast_S_S16x64x64x256 : S_.BroadcastsInDim S16x64x64x256 (![] : Fin 0 → Fin S16x64x64x256.rank)
  shapeCasts_S16_S16x1x1x1 : S16.ShapeCasts S16x1x1x1
  bcast_S_S16x128x128x256 : S_.BroadcastsInDim S16x128x128x256 (![] : Fin 0 → Fin S16x128x128x256.rank)
  bcast_S_S16x1x1x1 : S_.BroadcastsInDim S16x1x1x1 (![] : Fin 0 → Fin S16x1x1x1.rank)
  bcast_S_S256 : S_.BroadcastsInDim S256 (![] : Fin 0 → Fin S256.rank)
  bcast_S16x1x1x1_S16x64x64x256_0_1_2_3 : S16x1x1x1.BroadcastsInDim S16x64x64x256 (![0, 1, 2, 3] : Fin 4 → Fin S16x64x64x256.rank)
  bcast_S256_S16x64x64x256_3 : S256.BroadcastsInDim S16x64x64x256 (![3] : Fin 1 → Fin S16x64x64x256.rank)
  bcast_S16x64x64x256_S16x64x64x256x1_0_1_2_3 : S16x64x64x256.BroadcastsInDim S16x64x64x256x1 (![0, 1, 2, 3] : Fin 4 → Fin S16x64x64x256x1.rank)
  concatenates_S16x64x64x256x1_S16x64x64x256x1_S16x64x64x256x1_S16x64x64x256x1_S16x64x64x256x4_d4 : Shape.Concatenates [S16x64x64x256x1, S16x64x64x256x1, S16x64x64x256x1, S16x64x64x256x1] S16x64x64x256x4 4
  scatter_S16x128x128x256_S16x64x64x256x4_S16x64x64x256_n_0123_0123_4_wf : ScatterDims.WF S16x128x128x256 S16x64x64x256x4 S16x64x64x256 [] [0, 1, 2, 3] [0, 1, 2, 3] 4

variable [Facts₀]

def scatter_S16x128x128x256_S16x64x64x256x4_S16x64x64x256_n_0123_0123_4 : ScatterDims S16x128x128x256 S16x64x64x256x4 S16x64x64x256 where
  updateWindowDims := []
  insertedWindowDims := [0, 1, 2, 3]
  scatterDimsToOperandDims := [0, 1, 2, 3]
  indexVectorDim := 4
  wf := scatter_S16x128x128x256_S16x64x64x256x4_S16x64x64x256_n_0123_0123_4_wf

class Facts : Prop extends Facts₀ where

variable [Facts]
-- ==== Proof.KerStepDef.lean ====
/-
  One grid step of the kernel on its accumulator, as one pure term: the accumulator plus the product of the weighted
  row indicators with the column indicators, then the same with the weights replaced by the rounding residue.
-/
import proofs.«422130_j38568806318557_3_alg».proof.Proof.Gen.KernelIdeal.Skeleton

noncomputable section

namespace Cert.KernelIdeal.KerStep

open Cert.KernelIdeal Cert.KernelIdeal.Gen Idealize.ShloMosaic

variable {F : FTy → Type} [FloatOps F] [Facts]

/-- What one grid step leaves in the accumulator `acc`, from the step's block of updates `x0` and of index words `x1`. -/
def step (acc : Vec F S128x128x128 .f32) (x0 : Vec F S1x2x64x128 .f32) (x1 : Vec F S1x2x64x128 .i32) :
    FVec F S128x128x128 .f32 :=
  k0_pay2 (k0_pay7 x1) (k0_pay8 x1) (k0_pay10 x0) (k0_pay1 (k0_pay8 x1) (k0_pay9 x0 x1) acc)

end Cert.KernelIdeal.KerStep

end
-- ==== Proof.Spec.lean ====
/-
  Max-unpooling as a sum: every update carries a flat index word into the 128 x 128 x 256 output volume of its batch entry;
  the word's row is the word divided by 128 * 256 (an arithmetic shift by 15), its column the next seven bits (shift by 8,
  mask 127), and the channel is the update's own. The output at (b, Y, X, f) is the sum of the updates of batch entry b and
  channel f whose word decodes to row Y and column X. Both programs are proved to compute this array.
-/
import Idealize.ShloMosaic.PureOps.Ideal
import Idealize.ShloMosaic.Lib.ValueIdx

noncomputable section

open scoped BigOperators

namespace Cert.Unpool

open Idealize.ShloMosaic Idealize.ShloMosaic.ValueIdx

/-- The shape of the updates and of their index words. -/
abbrev SIn : Shape := ⟨4, ![16, 64, 64, 256]⟩
/-- The shape of the unpooled output. -/
abbrev SOut : Shape := ⟨4, ![16, 128, 128, 256]⟩

/-- The output row a flat index word selects: the word shifted right by 15, sign kept (the word over 128 * 256, rounded down). -/
def rowOf (m : BitVec 32) : BitVec 32 := IntOp.shrsi .vector m 15#32
/-- The output column a flat index word selects: the word shifted right by 8, sign kept, then its low seven bits. -/
def colOf (m : BitVec 32) : BitVec 32 := IntOp.andi (IntOp.shrsi .vector m 8#32) 127#32

/-- The update with index word `m` lands on row `Y`, column `X`. -/
def Lands (m : BitVec 32) (Y X : Fin 128) : Prop := rowOf m = BitVec.ofNat 32 Y.val ∧ colOf m = BitVec.ofNat 32 X.val

instance (m : BitVec 32) (Y X : Fin 128) : Decidable (Lands m Y X) := by unfold Lands; infer_instance

/-- The unpooled value at batch entry `b`, row `Y`, column `X`, channel `f`: the sum over the 64 x 64 source positions of the
    updates whose index word lands there. -/
def unpool (upd : SIn.Idx → EReal) (mask : SIn.Idx → BitVec 32) (b : Fin 16) (Y X : Fin 128) (f : Fin 256) : EReal :=
  ∑ h : Fin 64, ∑ w : Fin 64, if Lands (mask (ix4 b h w f)) Y X then upd (ix4 b h w f) else 0

/-- The unpooled array. -/
def unpoolArr (upd : SIn.Idx → EReal) (mask : SIn.Idx → BitVec 32) : SOut.Idx → EReal :=
  fun i => unpool upd mask (i 0) (i 1) (i 2) (i 3)

end Cert.Unpool

end
-- ==== Proof.KerStep.lean ====
/-
  One grid step read at an index, on the extended reals. At row Y, column X of channel c the step adds to the accumulator
  the updates of its block (two source rows of 64 positions) whose index word lands on (Y, X): the row indicator times the
  update times the column indicator is the update where both match and zero elsewhere, and the second product, whose
  weights are an update minus itself, adds zero because the updates are real numbers.
-/
import proofs.«422130_j38568806318557_3_alg».proof.Proof.KerStepDef
import proofs.«422130_j38568806318557_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerStep

open Cert.KernelIdeal Cert.KernelIdeal.Gen Idealize.ShloMosaic Idealize.ShloMosaic.ValueIdx Cert.Unpool

variable [Facts]

/-- The source row of a position `n` of the re-laid block: `n` over 64. -/
def hi (n : Fin 128) : Fin 2 := ⟨n.val / 64, by have := n.isLt; omega⟩
/-- The position inside its source row: `n` modulo 64. -/
def lo (n : Fin 128) : Fin 64 := ⟨n.val % 64, Nat.mod_lt _ (by decide)⟩

/-- The index words re-laid as 128 positions by 128 channels: position `n` is source row `n / 64`, place `n % 64`. -/
theorem pay5_apply (x1 : Vec Ideal S1x2x64x128 .i32) (n c : Fin 128) :
    k0_pay5 (F := Ideal) x1 (ix2 n c) = x1 (ix4 (0 : Fin 1) (hi n) (lo n) c) := by
  unfold k0_pay5
  refine (shapeCast_apply _ _ (ix2 n c) (ix3 (hi n) (lo n) c) ?_).trans ?_
  · rw [Shape.rowMajor_val_three, Shape.rowMajor_val_two]
    show ((n.val / 64) * 64 + n.val % 64) * 128 + c.val = n.val * 128 + c.val
    omega
  · refine shapeCast_apply _ _ (ix3 (hi n) (lo n) c) (ix4 (0 : Fin 1) (hi n) (lo n) c) ?_
    rw [Shape.rowMajor_val_four, Shape.rowMajor_val_three]
    show (((0 * 2 + n.val / 64) * 64 + n.val % 64) * 128 + c.val) = ((n.val / 64) * 64 + n.val % 64) * 128 + c.val
    omega

/-- The updates re-laid the same way and transposed: channel first, position second. -/
theorem pay6_apply (x0 : Vec Ideal S1x2x64x128 .f32) (c n : Fin 128) :
    k0_pay6 (F := Ideal) x0 (ix2 c n) = x0 (ix4 (0 : Fin 1) (hi n) (lo n) c) := by
  unfold k0_pay6
  refine (transpose_ix2_apply _ _ c n).trans ?_
  refine (shapeCast_apply _ _ (ix2 n c) (ix3 (hi n) (lo n) c) ?_).trans ?_
  · rw [Shape.rowMajor_val_three, Shape.rowMajor_val_two]
    show ((n.val / 64) * 64 + n.val % 64) * 128 + c.val = n.val * 128 + c.val
    omega
  · refine shapeCast_apply _ _ (ix3 (hi n) (lo n) c) (ix4 (0 : Fin 1) (hi n) (lo n) c) ?_
    rw [Shape.rowMajor_val_four, Shape.rowMajor_val_three]
    show (((0 * 2 + n.val / 64) * 64 + n.val % 64) * 128 + c.val) = ((n.val / 64) * 64 + n.val % 64) * 128 + c.val
    omega

/-! ## The two broadcast layouts, and the two coordinate ramps -/

section Layout
variable {α : Type}

/-- A channel-by-position matrix given a unit middle axis and repeated along it reads the matrix at (channel, position). -/
theorem rowBcast_apply (v : S128x128.Idx → α) (h2 : S128x128.ShapeCasts S128x1x128) (h3 : S128x1x128.Broadcasts S128x128x128)
    (c Y n : Fin 128) : broadcastTo S128x128x128 (shapeCast S128x1x128 v h2) h3 (ix3 c Y n) = v (ix2 c n) := by
  refine (broadcastTo_apply _ h3 (ix3 c Y n) (ix3 c (0 : Fin 1) n) fun a => ?_).trans ?_
  · match a with
    | ⟨0, _⟩ => rfl
    | ⟨1, _⟩ => rfl
    | ⟨2, _⟩ => rfl
  · refine shapeCast_apply v h2 (ix3 c (0 : Fin 1) n) (ix2 c n) ?_
    rw [Shape.rowMajor_val_three, Shape.rowMajor_val_two]
    show c.val * 128 + n.val = (c.val * 1 + 0) * 128 + n.val
    omega

/-- A channel-by-position matrix given a unit last axis and repeated along it reads the matrix at (channel, position). -/
theorem colBcast_apply (v : S128x128.Idx → α) (h2 : S128x128.ShapeCasts S128x128x1) (h3 : S128x128x1.Broadcasts S128x128x128)
    (c n X : Fin 128) : broadcastTo S128x128x128 (shapeCast S128x128x1 v h2) h3 (ix3 c n X) = v (ix2 c n) := by
  refine (broadcastTo_apply _ h3 (ix3 c n X) (ix3 c n (0 : Fin 1)) fun a => ?_).trans ?_
  · match a with
    | ⟨0, _⟩ => rfl
    | ⟨1, _⟩ => rfl
    | ⟨2, _⟩ => rfl
  · refine shapeCast_apply v h2 (ix3 c n (0 : Fin 1)) (ix2 c n) ?_
    rw [Shape.rowMajor_val_three, Shape.rowMajor_val_two]
    show c.val * 128 + n.val = (c.val * 128 + n.val) * 1 + 0
    omega

end Layout

/-- The ramp along the middle axis, repeated along the last: the middle coordinate as a word. -/
theorem rampY_apply (h : S128x128x1.Iotas .tc 32 [1]) (h3 : S128x128x1.Broadcasts S128x128x128) (c Y n : Fin 128) :
    broadcastTo S128x128x128 (iota .tc S128x128x1 32 [1] h) h3 (ix3 c Y n) = BitVec.ofNat 32 Y.val := by
  refine (broadcastTo_apply _ h3 (ix3 c Y n) (ix3 c Y (0 : Fin 1)) fun a => ?_).trans ?_
  · match a with
    | ⟨0, _⟩ => rfl
    | ⟨1, _⟩ => rfl
    | ⟨2, _⟩ => rfl
  · show BitVec.ofNat 32 (0 * 128 + Y.val) = _
    rw [Nat.zero_mul, Nat.zero_add]

/-- The ramp along the last axis, repeated along the middle: the last coordinate as a word. -/
theorem rampX_apply (h : S128x1x128.Iotas .tc 32 [2]) (h3 : S128x1x128.Broadcasts S128x128x128) (c n X : Fin 128) :
    broadcastTo S128x128x128 (iota .tc S128x1x128 32 [2] h) h3 (ix3 c n X) = BitVec.ofNat 32 X.val := by
  refine (broadcastTo_apply _ h3 (ix3 c n X) (ix3 c (0 : Fin 1) X) fun a => ?_).trans ?_
  · match a with
    | ⟨0, _⟩ => rfl
    | ⟨1, _⟩ => rfl
    | ⟨2, _⟩ => rfl
  · show BitVec.ofNat 32 (0 * 128 + X.val) = _
    rw [Nat.zero_mul, Nat.zero_add]

/-- A word comparison, widened and converted, is the number one where the words agree and zero elsewhere. -/
theorem ind_word (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    rw [if_pos rfl]
    simp [IntOp.cmpi]
  · rw [if_neg h]
    have hb : (a == b) = false := by simpa using h
    simp [IntOp.cmpi, hb]

/-! ## The indicators and the weights at an index -/

/-- The row indicator: one where the word's row is `Y`, zero elsewhere. -/
theorem pay7_apply (x1 : Vec Ideal S1x2x64x128 .i32) (c Y n : Fin 128) :
    k0_pay7 (F := Ideal) x1 (ix3 c Y n)
      = if rowOf (x1 (ix4 (0 : Fin 1) (hi n) (lo n) c)) = BitVec.ofNat 32 Y.val then (1 : EReal) else 0 := by
  unfold k0_pay7
  refine (ind_word _ _).trans ?_
  rw [rowBcast_apply, rampY_apply, transpose_ix2_apply]
  show (if IntOp.shrsi .vector (k0_pay5 (F := Ideal) x1 (ix2 n c)) 15#32 = _ then (1 : EReal) else 0) = _
  rw [pay5_apply]
  rfl

/-- The column indicator: one where the word's column is `X`, zero elsewhere. -/
theorem pay8_apply (x1 : Vec Ideal S1x2x64x128 .i32) (c n X : Fin 128) :
    k0_pay8 (F := Ideal) x1 (ix3 c n X)
      = if colOf (x1 (ix4 (0 : Fin 1) (hi n) (lo n) c)) = BitVec.ofNat 32 X.val then (1 : EReal) else 0 := by
  unfold k0_pay8
  refine (ind_word _ _).trans ?_
  rw [colBcast_apply, rampX_apply, transpose_ix2_apply]
  show (if IntOp.andi (IntOp.shrsi .vector (k0_pay5 (F := Ideal) x1 (ix2 n c)) 8#32) 127#32 = _ then (1 : EReal) else 0) = _
  rw [pay5_apply]
  rfl

/-- The weighted row indicator: the update where the word's row is `Y`. -/
theorem pay9_apply (x0 : Vec Ideal S1x2x64x128 .f32) (x1 : Vec Ideal S1x2x64x128 .i32) (c Y n : Fin 128) :
    k0_pay9 (F := Ideal) x0 x1 (ix3 c Y n)
      = (if rowOf (x1 (ix4 (0 : Fin 1) (hi n) (lo n) c)) = BitVec.ofNat 32 Y.val then (1 : EReal) else 0)
          * x0 (ix4 (0 : Fin 1) (hi n) (lo n) c) := by
  unfold k0_pay9
  refine (mulf_apply _ _ _).trans ?_
  rw [pay7_apply, rowBcast_apply]
  show _ * k0_pay6 (F := Ideal) x0 (ix2 c n) = _
  rw [pay6_apply]

/-- The residue weights: an update minus itself. -/
theorem pay10_apply (x0 : Vec Ideal S1x2x64x128 .f32) (c Y n : Fin 128) :
    k0_pay10 (F := Ideal) x0 (ix3 c Y n)
      = x0 (ix4 (0 : Fin 1) (hi n) (lo n) c) - x0 (ix4 (0 : Fin 1) (hi n) (lo n) c) := by
  unfold k0_pay10
  rw [rowBcast_apply]
  show k0_pay6 (F := Ideal) x0 (ix2 c n) - k0_pay6 (F := Ideal) x0 (ix2 c n) = _
  rw [pay6_apply]

/-! ## The batched product at an index

The product's batch axis is the channel, carried by both operands' first axis; the left operand's middle axis and the right
operand's last axis are free; the left's last axis is contracted with the right's middle one. -/

theorem lhs_dot_0 (i : S128x128x128.Idx) (q : dot_S128x128x128_S128x128x128_S128x128x128_2_1_1_2_0_0.contr.Idx) :
    (dot_S128x128x128_S128x128x128_S128x128x128_2_1_1_2_0_0.lhsIdx i q 0).val = (i 0).val := by
  unfold DotDims.lhsIdx
  rw [dif_pos (show (0 : Fin S128x128x128.rank) ∈ dot_S128x128x128_S128x128x128_S128x128x128_2_1_1_2_0_0.lhsBatch by decide)]
  rfl

theorem lhs_dot_1 (i : S128x128x128.Idx) (q : dot_S128x128x128_S128x128x128_S128x128x128_2_1_1_2_0_0.contr.Idx) :
    (dot_S128x128x128_S128x128x128_S128x128x128_2_1_1_2_0_0.lhsIdx i q 1).val = (i 1).val := by
  unfold DotDims.lhsIdx
  rw [dif_neg (show ¬(1 : Fin S128x128x128.rank) ∈ dot_S128x128x128_S128x128x128_S128x128x128_2_1_1_2_0_0.lhsBatch by decide),
    dif_pos (show (1 : Fin S128x128x128.rank) ∈ dot_S128x128x128_S128x128x128_S128x128x128_2_1_1_2_0_0.lhsNonContracting by decide)]
  rfl

theorem lhs_dot_2 (i : S128x128x128.Idx) (q : dot_S128x128x128_S128x128x128_S128x128x128_2_1_1_2_0_0.contr.Idx) :
    (dot_S128x128x128_S128x128x128_S128x128x128_2_1_1_2_0_0.lhsIdx i q 2).val = (q ⟨0, by decide⟩).val :=
  dot_S128x128x128_S128x128x128_S128x128x128_2_1_1_2_0_0.lhsIdx_val_of_single rfl i q

theorem rhs_dot_0 (i : S128x128x128.Idx) (q : dot_S128x128x128_S128x128x128_S128x128x128_2_1_1_2_0_0.contr.Idx) :
    (dot_S128x128x128_S128x128x128_S128x128x128_2_1_1_2_0_0.rhsIdx i q 0).val = (i 0).val := by
  unfold DotDims.rhsIdx
  rw [dif_pos (show (0 : Fin S128x128x128.rank) ∈ dot_S128x128x128_S128x128x128_S128x128x128_2_1_1_2_0_0.rhsBatch by decide)]
  rfl

theorem rhs_dot_1 (i : S128x128x128.Idx) (q : dot_S128x128x128_S128x128x128_S128x128x128_2_1_1_2_0_0.contr.Idx) :
    (dot_S128x128x128_S128x128x128_S128x128x128_2_1_1_2_0_0.rhsIdx i q 1).val = (q ⟨0, by decide⟩).val :=
  dot_S128x128x128_S128x128x128_S128x128x128_2_1_1_2_0_0.rhsIdx_val_of_single rfl i q

theorem rhs_dot_2 (i : S128x128x128.Idx) (q : dot_S128x128x128_S128x128x128_S128x128x128_2_1_1_2_0_0.contr.Idx) :
    (dot_S128x128x128_S128x128x128_S128x128x128_2_1_1_2_0_0.rhsIdx i q 2).val = (i 2).val := by
  unfold DotDims.rhsIdx
  rw [dif_neg (show ¬(2 : Fin S128x128x128.rank) ∈ dot_S128x128x128_S128x128x128_S128x128x128_2_1_1_2_0_0.rhsBatch by decide),
    dif_pos (show (2 : Fin S128x128x128.rank) ∈ dot_S128x128x128_S128x128x128_S128x128x128_2_1_1_2_0_0.rhsNonContracting by decide)]
  rfl

/-- The batched product into the zero accumulator, at channel `c`, row `Y`, column `X`: the sum over the 128 positions
    of the left operand at (c, Y, n) times the right operand at (c, n, X). -/
theorem matmul_zero_apply (A B : FVec Ideal S128x128x128 .bf16) (c Y X : Fin 128) :
    matmul dot_S128x128x128_S128x128x128_S128x128x128_2_1_1_2_0_0 none A B (constant (F := Ideal) S128x128x128 .f32 0x00000000#32) (ix3 c Y X)
      = ∑ n : Fin 128, A (ix3 c Y n) * B (ix3 c n X) := by
  refine (Ideal.matmul_constant_zero_apply dot_S128x128x128_S128x128x128_S128x128x128_2_1_1_2_0_0 none A B (ix3 c Y X)).trans ?_
  rw [← Equiv.sum_comp (contrEquiv1 dot_S128x128x128_S128x128x128_S128x128x128_2_1_1_2_0_0 128 rfl rfl).symm]
  refine Finset.sum_congr rfl fun n _ => ?_
  have hk := contrEquiv1_symm_val dot_S128x128x128_S128x128x128_S128x128x128_2_1_1_2_0_0 128 rfl rfl n
  have el : dot_S128x128x128_S128x128x128_S128x128x128_2_1_1_2_0_0.lhsIdx (ix3 c Y X) ((contrEquiv1 dot_S128x128x128_S128x128x128_S128x128x128_2_1_1_2_0_0 128 rfl rfl).symm n) = ix3 c Y n :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S128x128x128_S128x128x128_S128x128x128_2_1_1_2_0_0.rhsIdx (ix3 c Y X) ((contrEquiv1 dot_S128x128x128_S128x128x128_S128x128x128_2_1_1_2_0_0 128 rfl rfl).symm n) = ix3 c n X :=
    funext fun a => Fin.ext (by
      match a with
      | ⟨0, _⟩ => exact rhs_dot_0 _ _
      | ⟨1, _⟩ => exact (rhs_dot_1 _ _).trans hk
      | ⟨2, _⟩ => exact rhs_dot_2 _ _)
  rw [el, er]

/-! ## The two stores at an index -/

/-- The first store: the accumulator plus the product of the weighted row indicators with the column indicators. -/
theorem pay1_apply (v39 v41 : FVec Ideal S128x128x128 .bf16) (v44 : Vec Ideal S128x128x128 .f32) (c Y X : Fin 128) :
    k0_pay1 (F := Ideal) v39 v41 v44 (ix3 c Y X)
      = v44 (ix3 c Y X) + ∑ n : Fin 128, v41 (ix3 c Y n) * v39 (ix3 c n X) := by
  unfold k0_pay1
  rw [shapeCast_self]
  refine (addf_apply _ _ _).trans ?_
  exact congrArg (v44 (ix3 c Y X) + ·) (matmul_zero_apply v41 v39 c Y X)

/-- The second store: the accumulator plus the same product with the row indicators weighted by the residue. -/
theorem pay2_apply (v32 v39 v42 : FVec Ideal S128x128x128 .bf16) (v50 : Vec Ideal S128x128x128 .f32) (c Y X : Fin 128) :
    k0_pay2 (F := Ideal) v32 v39 v42 v50 (ix3 c Y X)
      = v50 (ix3 c Y X) + ∑ n : Fin 128, (v32 (ix3 c Y n) * v42 (ix3 c Y n)) * v39 (ix3 c n X) := by
  unfold k0_pay2
  rw [shapeCast_self]
  refine (addf_apply _ _ _).trans ?_
  exact congrArg (v50 (ix3 c Y X) + ·) (matmul_zero_apply (mulf v32 v42) v39 c Y X)

/-! ## Positions as source rows and places -/

/-- A sum over the 128 positions is the double sum over the two source rows and the 64 places of each. -/
theorem sum_positions (g : Fin 2 → Fin 64 → EReal) :
    ∑ n : Fin 128, g (hi n) (lo n) = ∑ r : Fin 2, ∑ w : Fin 64, g r w := by
  have e : ∀ p : Fin 2 × Fin 64, g (hi (finProdFinEquiv p)) (lo (finProdFinEquiv p)) = g p.1 p.2 := by
    rintro ⟨r, w⟩
    have h1 : hi (finProdFinEquiv (r, w)) = r := Fin.ext (by
      show (w.val + 64 * r.val) / 64 = r.val
      have := w.isLt
      omega)
    have h2 : lo (finProdFinEquiv (r, w)) = w := Fin.ext (by
      show (w.val + 64 * r.val) % 64 = w.val
      have := w.isLt
      omega)
    rw [h1, h2]
  calc ∑ n : Fin 128, g (hi n) (lo n)
      = ∑ p : Fin 2 × Fin 64, g (hi (finProdFinEquiv p)) (lo (finProdFinEquiv p)) :=
        (Equiv.sum_comp (finProdFinEquiv (m := 2) (n := 64)) (fun n : Fin 128 => g (hi n) (lo n))).symm
    _ = ∑ p : Fin 2 × Fin 64, g p.1 p.2 := Finset.sum_congr rfl fun p _ => e p
    _ = ∑ r : Fin 2, ∑ w : Fin 64, g r w := Fintype.sum_prod_type' g

/-! ## The step -/

/-- The step at an index: the accumulator plus the block's updates that land there. -/
theorem step_apply (acc : Vec Ideal S128x128x128 .f32) (x0 : Vec Ideal S1x2x64x128 .f32) (x1 : Vec Ideal S1x2x64x128 .i32)
    (hfin : ∀ y, ∃ r : ℝ, x0 y = (r : EReal)) (c Y X : Fin 128) :
    step (F := Ideal) acc x0 x1 (ix3 c Y X)
      = acc (ix3 c Y X) + ∑ r : Fin 2, ∑ w : Fin 64,
          if Lands (x1 (ix4 (0 : Fin 1) r w c)) Y X then x0 (ix4 (0 : Fin 1) r w c) else 0 := by
  unfold step
  rw [pay2_apply, pay1_apply]
  -- the residue product adds zero: its weights are a real number minus itself
  have h2 : ∑ n : Fin 128, (k0_pay7 (F := Ideal) x1 (ix3 c Y n) * k0_pay10 (F := Ideal) x0 (ix3 c Y n))
      * k0_pay8 (F := Ideal) x1 (ix3 c n X) = 0 := by
    refine Finset.sum_eq_zero fun n _ => ?_
    rw [pay10_apply]
    obtain ⟨t, ht⟩ := hfin (ix4 (0 : Fin 1) (hi n) (lo n) c)
    rw [ht, ← EReal.coe_sub, sub_self, EReal.coe_zero, mul_zero, zero_mul]
  rw [h2, add_zero]
  refine congrArg (acc (ix3 c Y X) + ·) ?_
  refine (Finset.sum_congr rfl fun n _ => ?_).trans
    (sum_positions fun r w => if Lands (x1 (ix4 (0 : Fin 1) r w c)) Y X then x0 (ix4 (0 : Fin 1) r w c) else 0)
  show _ = if Lands (x1 (ix4 (0 : Fin 1) (hi n) (lo n) c)) Y X then x0 (ix4 (0 : Fin 1) (hi n) (lo n) c) else 0
  rw [pay9_apply, pay8_apply]
  by_cases hL : Lands (x1 (ix4 (0 : Fin 1) (hi n) (lo n) c)) Y X
  · rw [if_pos hL, if_pos hL.1, if_pos hL.2, one_mul, mul_one]
  · rw [if_neg hL]
    by_cases hR : rowOf (x1 (ix4 (0 : Fin 1) (hi n) (lo n) c)) = BitVec.ofNat 32 Y.val
    · have hC : ¬colOf (x1 (ix4 (0 : Fin 1) (hi n) (lo n) c)) = BitVec.ofNat 32 X.val := fun h => hL ⟨hR, h⟩
      rw [if_neg hC, mul_zero]
    · rw [if_neg hR, zero_mul, zero_mul]

/-- The reset value of the accumulator is zero everywhere. -/
theorem pay4_apply (i : S128x128x128.Idx) : k0_pay4 (F := Ideal) i = 0 := by
  unfold k0_pay4
  rw [shapeCast_self]
  exact Ideal.ofBits_zero_f32

/-- The flushed block is the accumulator with the channel axis moved last. -/
theorem pay3_apply (v : Vec Ideal S128x128x128 .f32) (Y X c : Fin 128) :
    k0_pay3 (F := Ideal) v (ix4 (0 : Fin 1) Y X c) = v (ix3 c Y X) := by
  unfold k0_pay3
  refine (shapeCast_abc_1abc_apply _ _ (0 : Fin 1) Y X c).trans ?_
  exact transpose_apply _ v _ (ix3 Y X c) (ix3 c Y X) fun b =>
    match b with
    | ⟨0, _⟩ => rfl
    | ⟨1, _⟩ => rfl
    | ⟨2, _⟩ => rfl

end Cert.KernelIdeal.KerStep

end
-- ==== Proof.KerPieces.lean ====
/-
  What each control case of the kernel body leaves behind, as pure terms of the step's blocks. At a run's first step the
  accumulator is reset to zero and then stepped; at the other steps it is stepped from what the step before left; at a
  run's last step the output block is, besides, the stepped accumulator with its channel axis moved last.
-/
import proofs.«422130_j38568806318557_3_alg».proof.Proof.Gen.KernelIdeal.Frame
import proofs.«422130_j38568806318557_3_alg».proof.Proof.KerStepDef
import Idealize.ShloMosaic.Lib.Pipeline.Value
import Idealize.ShloMosaic.Lib.Tactic

set_option maxRecDepth 16384

noncomputable section

namespace Cert.KernelIdeal.KerPieces

open Cert.KernelIdeal Cert.KernelIdeal.Gen Idealize.ShloMosaic Cert.KernelIdeal.KerStep
open Idealize.ShloMosaic.Tactic

variable {F : FTy → Type} [FloatOps F]

/-- The zero offset of a rank-three block, as the constant function. -/
private theorem hz3 : (![0, 0, 0] : Fin 3 → Nat) = fun _ => 0 := funext fun a => by fin_cases a <;> rfl

/-- The zero offset of a rank-four block, as the constant function. -/
private theorem hz4 : (![0, 0, 0, 0] : Fin 4 → Nat) = fun _ => 0 := funext fun a => by fin_cases a <;> rfl

/-- A run's first step: the accumulator ends at one step from the zero array. -/
theorem sout_A (c : Dev nD) (i : grid0.Coords) (arg3 : Memref sig .tc .vmem S1x2x64x128 .f32) (harg3 : arg3.IsWhole) (arg4 : Memref sig .tc .vmem S1x2x64x128 .i32) (harg4 : arg4.IsWhole) (arg5 : Memref sig .tc .vmem S1x128x128x128 .f32) (harg5 : arg5.IsWhole) (arg6 : Memref sig .tc .vmem S128x128x128 .f32) (harg6 : arg6.IsWhole) (hc0 : cond0_0 i) (hc1 : ¬cond0_1 i)
    (x0 : Vec F S1x2x64x128 .f32) (x1 : Vec F S1x2x64x128 .i32) :
    sout0_A_0 c i arg3 harg3 arg4 harg4 arg5 harg5 arg6 harg6 hc0 hc1 x0 x1 = step (k0_pay4 (F := F)) x0 x1 := by
  -- The last store covers the whole accumulator, so it alone is what is left; its loads read the whole input blocks,
  -- and its load of the accumulator reads back the store before it, whose own load reads back the zero array.
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S128x128x128) hz3]
  simp only [View.readAt_eq_ld, harg3.read_unread, harg4.read_unread, harg6.read_unread,
    View.ld_unit_zero (S := S1x2x64x128) hz4, View.ld_unit_zero (S := S128x128x128) hz3,
    View.readCov_cons_toLoadRect, View.readCov_unit_zero (S := S128x128x128) _ hz3]
  rfl

/-- A middle step: the accumulator ends at one step from what the step before left. -/
theorem sout_B (c : Dev nD) (i : grid0.Coords) (arg3 : Memref sig .tc .vmem S1x2x64x128 .f32) (harg3 : arg3.IsWhole) (arg4 : Memref sig .tc .vmem S1x2x64x128 .i32) (harg4 : arg4.IsWhole) (arg5 : Memref sig .tc .vmem S1x128x128x128 .f32) (harg5 : arg5.IsWhole) (arg6 : Memref sig .tc .vmem S128x128x128 .f32) (harg6 : arg6.IsWhole) (hc0 : ¬cond0_0 i) (hc1 : ¬cond0_1 i)
    (x0 : Vec F S1x2x64x128 .f32) (x1 : Vec F S1x2x64x128 .i32) (xs0 : Vec F S128x128x128 .f32) :
    sout0_B_0 c i arg3 harg3 arg4 harg4 arg5 harg5 arg6 harg6 hc0 hc1 x0 x1 xs0 = step xs0 x0 x1 := by
  -- The last store covers the whole accumulator; its load of the accumulator reads back the store before it, whose
  -- own load reads what the step before left.
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_cons_unit_zero (S := S128x128x128) hz3]
  simp only [View.readAt_eq_ld, harg3.read_unread, harg4.read_unread, harg6.read_unread,
    View.ld_unit_zero (S := S1x2x64x128) hz4, View.ld_unit_zero (S := S128x128x128) hz3,
    View.readCov_cons_toLoadRect, View.readCov_unit_zero (S := S128x128x128) _ hz3]
  rfl

/-- A run's last step: the accumulator ends at one step from what the step before left, -/
theorem sout_C (c : Dev nD) (i : grid0.Coords) (arg3 : Memref sig .tc .vmem S1x2x64x128 .f32) (harg3 : arg3.IsWhole) (arg4 : Memref sig .tc .vmem S1x2x64x128 .i32) (harg4 : arg4.IsWhole) (arg5 : Memref sig .tc .vmem S1x128x128x128 .f32) (harg5 : arg5.IsWhole) (arg6 : Memref sig .tc .vmem S128x128x128 .f32) (harg6 : arg6.IsWhole) (hc0 : ¬cond0_0 i) (hc1 : cond0_1 i)
    (x0 : Vec F S1x2x64x128 .f32) (x1 : Vec F S1x2x64x128 .i32) (xs0 : Vec F S128x128x128 .f32) :
    sout0_C_0 c i arg3 harg3 arg4 harg4 arg5 harg5 arg6 harg6 hc0 hc1 x0 x1 xs0 = step xs0 x0 x1 := by
  -- The last store covers the whole accumulator; its load of the accumulator reads back the store before it, whose
  -- own load reads what the step before left.
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_cons_unit_zero (S := S128x128x128) hz3]
  simp only [View.readAt_eq_ld, harg3.read_unread, harg4.read_unread, harg6.read_unread,
    View.ld_unit_zero (S := S1x2x64x128) hz4, View.ld_unit_zero (S := S128x128x128) hz3,
    View.readCov_cons_toLoadRect, View.readCov_unit_zero (S := S128x128x128) _ hz3]
  rfl

/-- and the output block is that accumulator with the channel axis moved last. -/
theorem out_C (c : Dev nD) (i : grid0.Coords) (arg3 : Memref sig .tc .vmem S1x2x64x128 .f32) (harg3 : arg3.IsWhole) (arg4 : Memref sig .tc .vmem S1x2x64x128 .i32) (harg4 : arg4.IsWhole) (arg5 : Memref sig .tc .vmem S1x128x128x128 .f32) (harg5 : arg5.IsWhole) (arg6 : Memref sig .tc .vmem S128x128x128 .f32) (harg6 : arg6.IsWhole) (hc0 : ¬cond0_0 i) (hc1 : cond0_1 i)
    (x0 : Vec F S1x2x64x128 .f32) (x1 : Vec F S1x2x64x128 .i32) (xs0 : Vec F S128x128x128 .f32) :
    out0_C_2 c i arg3 harg3 arg4 harg4 arg5 harg5 arg6 harg6 hc0 hc1 x0 x1 xs0 = k0_pay3 (step xs0 x0 x1) := by
  -- The one store into the output block covers it; its payload is the accumulator read back after its last store.
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1x128x128x128) hz4]
  simp only [View.readAt_eq_ld, harg3.read_unread, harg4.read_unread, harg6.read_unread,
    View.ld_unit_zero (S := S1x2x64x128) hz4, View.ld_unit_zero (S := S128x128x128) hz3,
    View.readCov_cons_toLoadRect, View.readCov_unit_zero (S := S128x128x128) _ hz3]
  rfl

end Cert.KernelIdeal.KerPieces

end
-- ==== Proof.LibSumIdx.lean ====
/-
  A sum over a rank-4 index set is the fourfold sum over its coordinates: the index set is the product of its four
  coordinate ranges (every index is the index built from its four coordinates).
-/
import Idealize.ShloMosaic.Lib.ValueIdx
import Mathlib.Algebra.BigOperators.Group.Finset.Basic
import Mathlib.Data.Fintype.BigOperators

noncomputable section

open scoped BigOperators

namespace Cert.LibSumIdx

open Idealize.ShloMosaic Idealize.ShloMosaic.ValueIdx

/-- A rank-4 index set is the product of its four coordinate ranges. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end Cert.LibSumIdx

end
-- ==== Proof.Sums.lean ====
/-
  Sums over the updates: a sum over the updates
  that land at one output position keeps only that position's batch entry and channel; and the 64 source rows are the
  32 steps of two rows each.
-/
import proofs.«422130_j38568806318557_3_alg».proof.Proof.Spec
import proofs.«422130_j38568806318557_3_alg».proof.Proof.LibSumIdx
import Mathlib.Algebra.BigOperators.Group.Finset.Basic
import Mathlib.Data.Fintype.BigOperators
import Mathlib.Logic.Equiv.Fin.Basic

noncomputable section

open scoped BigOperators

namespace Cert.Unpool

open Idealize.ShloMosaic Idealize.ShloMosaic.ValueIdx Cert.LibSumIdx

/-- A sum over the updates selected by a predicate that fixes the batch entry and the channel and tests the source
    position is the double sum over the source positions of the tested updates. -/
theorem sum_filter_fix {M : Type*} [AddCommMonoid M] (P : SIn.Idx → Prop) [DecidablePred P] (u : SIn.Idx → M) (b : Fin 16) (f : Fin 256)
    (Q : Fin 64 → Fin 64 → Prop) [∀ h w, Decidable (Q h w)]
    (hP : ∀ (b' : Fin 16) (h w : Fin 64) (f' : Fin 256), P (ix4 b' h w f') ↔ (b' = b ∧ f' = f ∧ Q h w)) :
    ∑ j ∈ Finset.univ.filter P, u j = ∑ h : Fin 64, ∑ w : Fin 64, if Q h w then u (ix4 b h w f) else 0 := by
  rw [Finset.sum_filter, sum_idx4]
  -- only the batch entry b contributes
  rw [Fintype.sum_eq_single b]
  · refine Finset.sum_congr rfl fun h _ => Finset.sum_congr rfl fun w _ => ?_
    -- only the channel f contributes
    rw [Fintype.sum_eq_single f]
    · by_cases hq : Q h w
      · rw [if_pos ((hP b h w f).2 ⟨rfl, rfl, hq⟩), if_pos hq]
      · rw [if_neg (fun hp => hq ((hP b h w f).1 hp).2.2), if_neg hq]
    · intro f' hf
      exact if_neg fun hp => hf ((hP b h w f').1 hp).2.1
  · intro b' hb
    refine Finset.sum_eq_zero fun h _ => Finset.sum_eq_zero fun w _ => Finset.sum_eq_zero fun f' _ => ?_
    exact if_neg fun hp => hb ((hP b' h w f').1 hp).1

/-- The 64 source rows taken two at a time: 32 steps of 2 rows. -/
theorem sum_rows_pairs {M : Type*} [AddCommMonoid M] (g : Fin 64 → Fin 64 → M) :
    ∑ s : Fin 32, ∑ r : Fin 2, ∑ w : Fin 64, g ⟨2 * s.val + r.val, by omega⟩ w = ∑ h : Fin 64, ∑ w : Fin 64, g h w := by
  rw [← Equiv.sum_comp (finProdFinEquiv : Fin 32 × Fin 2 ≃ Fin 64) (fun h => ∑ w : Fin 64, g h w),
    Fintype.sum_prod_type]
  refine Finset.sum_congr rfl fun s _ => Finset.sum_congr rfl fun r _ => Finset.sum_congr rfl fun w _ => ?_
  congr 1
  apply Fin.ext
  show 2 * s.val + r.val = r.val + 2 * s.val
  omega

end Cert.Unpool

end
-- ==== Proof.KerValue.lean ====
/-
  The kernel's result array. The grid runs over batch entry b, channel block cb and 32 steps of two source rows; the
  accumulator is reset at a run's first step, every step adds the updates of its two rows that land at each (row, column)
  of each channel, and the run's last step writes the accumulator, channel axis last, to block (b, cb) of the output.
  By induction on the step the accumulator after step s holds the sum over the steps 0..s of their contributions; the 32
  steps of two rows are the 64 source rows, so the flushed block is the unpooled array's block, and the 32 blocks tile
  the output.
-/
import proofs.«422130_j38568806318557_3_alg».proof.Proof.Gen.KernelIdeal.Value
import proofs.«422130_j38568806318557_3_alg».proof.Proof.KerStep
import proofs.«422130_j38568806318557_3_alg».proof.Proof.KerPieces
import proofs.«422130_j38568806318557_3_alg».proof.Proof.Sums
import Idealize.ShloMosaic.Lib.Pipeline.Value

set_option maxRecDepth 16384

noncomputable section

open scoped BigOperators

namespace Cert.KernelIdeal.KerValue

open Cert.KernelIdeal Cert.KernelIdeal.Gen Cert.KernelIdeal.Value Idealize.ShloMosaic Idealize.ShloMosaic.TcCoe Idealize.SL.Sem
open Idealize.ShloMosaic.ValueIdx Cert.Unpool Cert.KernelIdeal.KerStep Cert.KernelIdeal.KerPieces
open Idealize.ShloMosaic.Pipeline (Dat)

variable (m : (ℓ : Loc nD τ sig) → Buf (Elt Ideal) ℓ) (ρ : Dev nD → PrngReg)

/-- The updates as launched. -/
abbrev upd (c : Dev nD) : SIn.Idx → EReal := m ((c : Thread nD τ).loc main_arg0)
/-- The index words as launched. -/
abbrev msk (c : Dev nD) : SIn.Idx → BitVec 32 := m ((c : Thread nD τ).loc main_arg1)
/-- The block of updates step `t` reads. -/
abbrev ublk (c : Dev nD) (t : Fin cfg0.N) : Vec Ideal S1x2x64x128 .f32 := iblk m c 0 t
/-- The block of index words step `t` reads. -/
abbrev mblk (c : Dev nD) (t : Fin cfg0.N) : Vec Ideal S1x2x64x128 .i32 := iblk m c 1 t

/-- The block indices of the three windows at point t = (64 b + 32 cb + s): (b, s, 0, cb) for the inputs, (b, 0, 0, cb) for the output. -/
theorem idx_facts : ∀ t : Fin cfg0.N,
    win0_0.index t (0 : Fin 4) = t.val / 64 ∧ win0_0.index t (1 : Fin 4) = t.val % 32 ∧ win0_0.index t (2 : Fin 4) = 0
    ∧ win0_0.index t (3 : Fin 4) = t.val / 32 % 2
    ∧ win0_1.index t (0 : Fin 4) = t.val / 64 ∧ win0_1.index t (1 : Fin 4) = t.val % 32 ∧ win0_1.index t (2 : Fin 4) = 0
    ∧ win0_1.index t (3 : Fin 4) = t.val / 32 % 2
    ∧ win0_2.index t (0 : Fin 4) = t.val / 64 ∧ win0_2.index t (1 : Fin 4) = 0 ∧ win0_2.index t (2 : Fin 4) = 0
    ∧ win0_2.index t (3 : Fin 4) = t.val / 32 % 2 :=
  (by decide +kernel : ∀ t : Fin grid0.N, _)

/-- The updates' block at point `t`, read at (source row r of the step, position w, channel cc of the block), is the update
    at (b, 2 s + r, w, 128 cb + cc). -/
theorem ublk_apply (c : Dev nD) (t : Fin cfg0.N) (r : Fin 2) (w : Fin 64) (cc : Fin 128) (b : Fin 16) (h : Fin 64) (f : Fin 256)
    (hb : b.val = t.val / 64) (hh : h.val = 2 * (t.val % 32) + r.val) (hf : f.val = 128 * (t.val / 32 % 2) + cc.val) :
    ublk m c t (ix4 (0 : Fin 1) r w cc) = upd m c (ix4 b h w f) := by
  obtain ⟨e0, e1, e2, e3, -⟩ := idx_facts t
  unfold ublk iblk
  rw [View.read_apply]
  show V m c main_arg0 _ = m ((c : Thread nD τ).loc main_arg0) _
  unfold V
  congr 1
  funext a
  apply Fin.ext
  match a with
  | ⟨0, _⟩ => show win0_0.index t (0 : Fin 4) * 1 + 1 * 0 = b.val; omega
  | ⟨1, _⟩ => show win0_0.index t (1 : Fin 4) * 2 + 1 * r.val = h.val; omega
  | ⟨2, _⟩ => show win0_0.index t (2 : Fin 4) * 64 + 1 * w.val = w.val; omega
  | ⟨3, _⟩ => show win0_0.index t (3 : Fin 4) * 128 + 1 * cc.val = f.val; omega

/-- The index words' block at point `t`, likewise. -/
theorem mblk_apply (c : Dev nD) (t : Fin cfg0.N) (r : Fin 2) (w : Fin 64) (cc : Fin 128) (b : Fin 16) (h : Fin 64) (f : Fin 256)
    (hb : b.val = t.val / 64) (hh : h.val = 2 * (t.val % 32) + r.val) (hf : f.val = 128 * (t.val / 32 % 2) + cc.val) :
    mblk m c t (ix4 (0 : Fin 1) r w cc) = msk m c (ix4 b h w f) := by
  obtain ⟨-, -, -, -, e0, e1, e2, e3, -⟩ := idx_facts t
  unfold mblk iblk
  rw [View.read_apply]
  show V m c main_arg1 _ = m ((c : Thread nD τ).loc main_arg1) _
  unfold V
  congr 1
  funext a
  apply Fin.ext
  match a with
  | ⟨0, _⟩ => show win0_1.index t (0 : Fin 4) * 1 + 1 * 0 = b.val; omega
  | ⟨1, _⟩ => show win0_1.index t (1 : Fin 4) * 2 + 1 * r.val = h.val; omega
  | ⟨2, _⟩ => show win0_1.index t (2 : Fin 4) * 64 + 1 * w.val = w.val; omega
  | ⟨3, _⟩ => show win0_1.index t (3 : Fin 4) * 128 + 1 * cc.val = f.val; omega

/-- Every entry of a block of real updates is real. -/
theorem ublk_real (hfin : ∀ (c : Dev nD) j, ∃ r : ℝ, upd m c j = (r : EReal)) (c : Dev nD) (t : Fin cfg0.N) (y : S1x2x64x128.Idx) :
    ∃ r : ℝ, ublk m c t y = (r : EReal) := by
  unfold ublk iblk
  rw [View.read_apply]
  exact hfin c _

/-- What step `n` adds at (channel cc of its block, row Y, column X): the updates of its two source rows that land there. -/
def contrib (c : Dev nD) (n : ℕ) (cc Y X : Fin 128) : EReal :=
  if h : n < cfg0.N then
    ∑ r : Fin 2, ∑ w : Fin 64,
      if Lands (mblk m c ⟨n, h⟩ (ix4 (0 : Fin 1) r w cc)) Y X then ublk m c ⟨n, h⟩ (ix4 (0 : Fin 1) r w cc) else 0
  else 0

/-- One step at point `n` from the accumulator `acc`, at an index. -/
theorem step_at (hfin : ∀ (c : Dev nD) j, ∃ r : ℝ, upd m c j = (r : EReal)) (c : Dev nD) (n : ℕ) (h : n < cfg0.N)
    (acc : Vec Ideal S128x128x128 .f32) (cc Y X : Fin 128) :
    step (F := Ideal) acc (ublk m c ⟨n, h⟩) (mblk m c ⟨n, h⟩) (ix3 cc Y X) = acc (ix3 cc Y X) + contrib m c n cc Y X := by
  rw [step_apply acc (ublk m c ⟨n, h⟩) (mblk m c ⟨n, h⟩) (ublk_real m hfin c ⟨n, h⟩) cc Y X]
  unfold contrib
  rw [dif_pos h]

/-- The accumulator after step j of run q holds, at every index, the contributions of the run's steps 0..j. -/
theorem acc_eq (hfin : ∀ (c : Dev nD) j, ∃ r : ℝ, upd m c j = (r : EReal)) (c : Dev nD) (q : ℕ) :
    ∀ (j : ℕ) (h : 32 * q + j < cfg0.N), j < 32 → ∀ cc Y X : Fin 128,
      Pipeline.accAt (fun n h => scAt0_0 m c n h (VS0_0.read (Elt Ideal) VS0_0.junk)) (scAt0_0 m c) (32 * q) j h (ix3 cc Y X)
        = ∑ s ∈ Finset.range (j + 1), contrib m c (32 * q + s) cc Y X
  | 0, h, _, cc, Y, X => by
    rw [Pipeline.accAt_zero]
    have h0 : (32 * q) % 32 = 0 := by omega
    have h1 : ¬(32 * q) % 32 = 31 := by omega
    unfold scAt0_0
    rw [dif_pos h0, dif_neg h1]
    rw [sout_A c (grid0.coords (⟨32 * q, h⟩ : Fin cfg0.N)) (ms0_0 (⟨32 * q, h⟩ : Fin cfg0.N)) (hs0_0 (⟨32 * q, h⟩ : Fin cfg0.N)) (ms0_1 (⟨32 * q, h⟩ : Fin cfg0.N)) (hs0_1 (⟨32 * q, h⟩ : Fin cfg0.N)) (ms0_2 (⟨32 * q, h⟩ : Fin cfg0.N)) (hs0_2 (⟨32 * q, h⟩ : Fin cfg0.N)) scM0_0 (Memref.isWhole_whole _)]
    rw [Finset.sum_range_one]
    refine (step_at m hfin c (32 * q) h _ cc Y X).trans ?_
    rw [pay4_apply, zero_add]
    rfl
  | j + 1, h, hj, cc, Y, X => by
    rw [Pipeline.accAt_succ]
    have h0 : ¬(32 * q + (j + 1)) % 32 = 0 := by omega
    rw [Finset.sum_range_succ, ← acc_eq hfin c q j (Nat.lt_of_succ_lt h) (by omega) cc Y X]
    unfold scAt0_0
    rw [dif_neg h0]
    by_cases h1 : (32 * q + (j + 1)) % 32 = 31
    · rw [dif_pos h1]
      rw [sout_C c (grid0.coords (⟨32 * q + (j + 1), h⟩ : Fin cfg0.N)) (ms0_0 (⟨32 * q + (j + 1), h⟩ : Fin cfg0.N)) (hs0_0 (⟨32 * q + (j + 1), h⟩ : Fin cfg0.N)) (ms0_1 (⟨32 * q + (j + 1), h⟩ : Fin cfg0.N)) (hs0_1 (⟨32 * q + (j + 1), h⟩ : Fin cfg0.N)) (ms0_2 (⟨32 * q + (j + 1), h⟩ : Fin cfg0.N)) (hs0_2 (⟨32 * q + (j + 1), h⟩ : Fin cfg0.N)) scM0_0 (Memref.isWhole_whole _)]
      exact step_at m hfin c (32 * q + (j + 1)) h _ cc Y X
    · rw [dif_neg h1]
      rw [sout_B c (grid0.coords (⟨32 * q + (j + 1), h⟩ : Fin cfg0.N)) (ms0_0 (⟨32 * q + (j + 1), h⟩ : Fin cfg0.N)) (hs0_0 (⟨32 * q + (j + 1), h⟩ : Fin cfg0.N)) (ms0_1 (⟨32 * q + (j + 1), h⟩ : Fin cfg0.N)) (hs0_1 (⟨32 * q + (j + 1), h⟩ : Fin cfg0.N)) (ms0_2 (⟨32 * q + (j + 1), h⟩ : Fin cfg0.N)) (hs0_2 (⟨32 * q + (j + 1), h⟩ : Fin cfg0.N)) scM0_0 (Memref.isWhole_whole _)]
      exact step_at m hfin c (32 * q + (j + 1)) h _ cc Y X

/-- The accumulator after the point `t`, at an index: the contributions of its run's steps up to `t`. -/
theorem scratch_at (hfin : ∀ (c : Dev nD) j, ∃ r : ℝ, upd m c j = (r : EReal)) (c : Dev nD) (t : Fin cfg0.N) (cc Y X : Fin 128) :
    (outsAt0 m c t.val t.isLt).2 (ix3 cc Y X) = ∑ s ∈ Finset.range (t.val % 32 + 1), contrib m c (32 * (t.val / 32) + s) cc Y X := by
  rw [soutsAt0_0_eq m c t]
  exact acc_eq m hfin c (t.val / 32) (t.val % 32) _ (Nat.mod_lt _ (by norm_num)) cc Y X

/-- A whole run's contributions at (cc, Y, X) are the unpooled value at (b, Y, X, 128 cb + cc): the 32 steps of two source
    rows are the 64 source rows. -/
theorem run_sum (c : Dev nD) (q : ℕ) (hq : 32 * q + 31 < cfg0.N) (cc Y X : Fin 128) (b : Fin 16) (f : Fin 256)
    (hb : b.val = q / 2) (hf : f.val = 128 * (q % 2) + cc.val) :
    ∑ s ∈ Finset.range 32, contrib m c (32 * q + s) cc Y X = unpool (upd m c) (msk m c) b Y X f := by
  have hN : cfg0.N = 1024 := N_0
  rw [Finset.sum_range]
  unfold unpool
  rw [← sum_rows_pairs (fun h w => if Lands (msk m c (ix4 b h w f)) Y X then upd m c (ix4 b h w f) else 0)]
  refine Finset.sum_congr rfl fun s _ => ?_
  have hs : 32 * q + s.val < cfg0.N := by have := s.isLt; omega
  unfold contrib
  rw [dif_pos hs]
  refine Finset.sum_congr rfl fun r _ => Finset.sum_congr rfl fun w _ => ?_
  have hr := r.isLt
  have hs' := s.isLt
  rw [ublk_apply m c ⟨32 * q + s.val, hs⟩ r w cc b ⟨2 * s.val + r.val, by omega⟩ f (by dsimp only; omega) (by dsimp only; omega) (by dsimp only; omega),
    mblk_apply m c ⟨32 * q + s.val, hs⟩ r w cc b ⟨2 * s.val + r.val, by omega⟩ f (by dsimp only; omega) (by dsimp only; omega) (by dsimp only; omega)]

/-- Where the output block of point `t` sits in the output array: (0, Y, X, cc) of the block is (b, Y, X, 128 cb + cc). -/
theorem oblk_emb (t : Fin cfg0.N) (Y X cc : Fin 128) (b : Fin 16) (f : Fin 256)
    (hb : b.val = t.val / 64) (hf : f.val = 128 * (t.val / 32 % 2) + cc.val) :
    ((cfg0.win 2).blk t).view.emb (ix4 (0 : Fin 1) Y X cc) = ix4 b Y X f := by
  obtain ⟨-, -, -, -, -, -, -, -, e0, e1, e2, e3⟩ := idx_facts t
  funext a
  apply Fin.ext
  match a with
  | ⟨0, _⟩ => show win0_2.index t (0 : Fin 4) * 1 + 1 * 0 = b.val; omega
  | ⟨1, _⟩ => show win0_2.index t (1 : Fin 4) * 128 + 1 * Y.val = Y.val; omega
  | ⟨2, _⟩ => show win0_2.index t (2 : Fin 4) * 128 + 1 * X.val = X.val; omega
  | ⟨3, _⟩ => show win0_2.index t (3 : Fin 4) * 128 + 1 * cc.val = f.val; omega

/-- What a run's last point writes back is its block of the unpooled array. -/
theorem flushed_eq (hfin : ∀ (c : Dev nD) j, ∃ r : ℝ, upd m c j = (r : EReal)) (c : Dev nD) (t : Fin cfg0.N)
    (hf : (cfg0.win 2).flush t = true) :
    (dats m 0 c).flushed 2 t = ((cfg0.win 2).blk t).view.read (Elt Ideal) (unpoolArr (upd m c) (msk m c)) := by
  have hN : cfg0.N = 1024 := N_0
  have h1 : t.val % 32 = 31 := (flush0_2 t).mp hf
  have h0 : ¬t.val % 32 = 0 := by omega
  rw [flushed2_C m c t h0 h1]
  rw [out_C c (grid0.coords t) (ms0_0 t) (hs0_0 t) (ms0_1 t) (hs0_1 t) (ms0_2 t) (hs0_2 t) scM0_0 (Memref.isWhole_whole _)]
  have e : step (F := Ideal) (outsAt0 m c (t.val - 1) (Nat.lt_of_le_of_lt (Nat.sub_le _ _) t.isLt)).2 (iblk m c 0 t) (iblk m c 1 t)
      = (outsAt0 m c t.val t.isLt).2 := by
    rw [outsAt0_C m c t h0 h1]
    dsimp only
    exact (sout_C c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t) _).symm
  rw [e]
  funext y
  obtain ⟨Y, X, cc, rfl⟩ : ∃ (Y X cc : Fin 128), y = ix4 (0 : Fin 1) Y X cc :=
    ⟨y 1, y 2, y 3, by
      funext a
      match a with
      | ⟨0, _⟩ => exact Fin.ext (by have h : (y 0).val < 1 := (y 0).isLt; show (y 0).val = 0; omega)
      | ⟨1, _⟩ => rfl
      | ⟨2, _⟩ => rfl
      | ⟨3, _⟩ => rfl⟩
  have ht : t.val < 1024 := hN ▸ t.isLt
  show k0_pay3 (F := Ideal) (outsAt0 m c t.val t.isLt).2 (ix4 (0 : Fin 1) Y X cc)
    = unpoolArr (upd m c) (msk m c) (((cfg0.win 2).blk t).view.emb (ix4 (0 : Fin 1) Y X cc))
  rw [pay3_apply, scratch_at m hfin c t cc Y X, h1,
    oblk_emb t Y X cc ⟨t.val / 64, by omega⟩ ⟨128 * (t.val / 32 % 2) + cc.val, by have := cc.isLt; omega⟩ rfl rfl]
  exact run_sum m c (t.val / 32) (by omega) cc Y X _ _ (by dsimp only; omega) rfl

/-- An index of the output is in point `t`'s block iff each coordinate is in the block's range on its axis. -/
theorem mem_blk (t : Fin cfg0.N) (i : S16x128x128x256.Idx) :
    i ∈ ((cfg0.win 2).blk t).view.set ↔ ∀ a : Fin 4, win0_2.index t a * S1x128x128x128.size a ≤ (i a).val
      ∧ (i a).val < win0_2.index t a * S1x128x128x128.size a + S1x128x128x128.size a := by
  show i ∈ ((View.whole main_v0).slice (win0_2.rect t)).set ↔ _
  rw [View.set_slice_whole, Rect.mem_set_unit]
  exact Iff.rfl

/-- Every output index is in the block some run's last point writes back. -/
theorem cover (i : S16x128x128x256.Idx) : ∃ t : Fin cfg0.N, (cfg0.win 2).flush t = true ∧ i ∈ ((cfg0.win 2).blk t).view.set := by
  have hN : cfg0.N = 1024 := N_0
  have i0 : (i 0).val < 16 := (i 0).isLt
  have i1 : (i 1).val < 128 := (i 1).isLt
  have i2 : (i 2).val < 128 := (i 2).isLt
  have i3 : (i 3).val < 256 := (i 3).isLt
  refine ⟨⟨32 * (2 * (i 0).val + (i 3).val / 128) + 31, by omega⟩, (flush0_2 _).mpr (by dsimp only; omega), ?_⟩
  rw [mem_blk]
  obtain ⟨-, -, -, -, -, -, -, -, e0, e1, e2, e3⟩ := idx_facts ⟨32 * (2 * (i 0).val + (i 3).val / 128) + 31, by omega⟩
  dsimp only at e0 e1 e2 e3
  intro a
  match a with
  | ⟨0, _⟩ => show win0_2.index _ (0 : Fin 4) * 1 ≤ (i 0).val ∧ (i 0).val < win0_2.index _ (0 : Fin 4) * 1 + 1; omega
  | ⟨1, _⟩ => show win0_2.index _ (1 : Fin 4) * 128 ≤ (i 1).val ∧ (i 1).val < win0_2.index _ (1 : Fin 4) * 128 + 128; omega
  | ⟨2, _⟩ => show win0_2.index _ (2 : Fin 4) * 128 ≤ (i 2).val ∧ (i 2).val < win0_2.index _ (2 : Fin 4) * 128 + 128; omega
  | ⟨3, _⟩ => show win0_2.index _ (3 : Fin 4) * 128 ≤ (i 3).val ∧ (i 3).val < win0_2.index _ (3 : Fin 4) * 128 + 128; omega

/-- The output array after the run is the unpooled array of the launched inputs. -/
theorem final (hfin : ∀ (c : Dev nD) j, ∃ r : ℝ, upd m c j = (r : EReal)) (c : Dev nD) :
    (dats m 0 c).arrAt 2 cfg0.N = unpoolArr (upd m c) (msk m c) :=
  (dats m 0 c).arrAt_eq_of_cover 2 (unpoolArr (upd m c) (msk m c)) (flushed_eq m hfin c) cover

/-- The kernel's run, read: the result array at the unpooled array, the arguments unchanged. -/
theorem run (hfin : ∀ (c : Dev nD) j, ∃ r : ℝ, upd m c j = (r : EReal)) :
    θ_run defs (onTc (τ := τ) (main (F := Ideal))) ⟨m, fun _ => 0, ρ⟩ fun r => ∀ c : Dev nD,
      r.2.mem ((c : Thread nD τ).loc main_v0) = unpoolArr (upd m c) (msk m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hfin c), (h c).2⟩) (run_blocks m ρ)

end Cert.KernelIdeal.KerValue

end
-- ==== Proof.RefTerm.lean ====
/-
  The reference as one pure term. Its index decode is jnp's floor division and floor remainder, spelt with a
  truncating quotient and a correction by the signs; a negative coordinate is then wrapped by the axis length
  (NumPy's indexing rule), the batch and channel coordinates are the update's own, and the four coordinate arrays are
  stacked into the scatter's index array. The result is the zero array with every update added where its index lands.
-/
import proofs.«422130_j38568806318557_3_alg».proof.ReferenceIdeal

noncomputable section

namespace Cert.ReferenceIdeal.RefTerm

open Cert.ReferenceIdeal Idealize.ShloMosaic

variable {F : FTy → Type} [FloatOps F]
variable [Facts]
open Facts₀ Facts

/-- jnp's floor division of every word of `x` by the scalar word `d`: the truncating quotient, less one where the
    signs differ and the remainder is not zero. -/
def floorDiv (x : IVec S16x64x64x256 32) (d : IVec S_ 32) : IVec S16x64x64x256 32 :=
  let v1 : IVec S16x64x64x256 32 := broadcastInDim S16x64x64x256 ![] bcast_S_S16x64x64x256 d
  let v2 : IVec S16x64x64x256 32 := Host.divsi x v1
  let v3 : IVec S16x64x64x256 32 := signi x
  let v4 : IVec S_ 32 := signi d
  let v5 : IVec S16x64x64x256 32 := broadcastInDim S16x64x64x256 ![] bcast_S_S16x64x64x256 v4
  let v6 : IVec S16x64x64x256 1 := cmpi .ne v3 v5
  let v7 : IVec S16x64x64x256 32 := broadcastInDim S16x64x64x256 ![] bcast_S_S16x64x64x256 d
  let v8 : IVec S16x64x64x256 32 := Host.remsi x v7
  let v9 : IVec S16x64x64x256 32 := broadcastInDim S16x64x64x256 ![] bcast_S_S16x64x64x256 (constantI S_ 32 0#32)
  let v10 : IVec S16x64x64x256 1 := cmpi .ne v8 v9
  let v11 : IVec S16x64x64x256 1 := andi v6 v10
  let v12 : IVec S16x64x64x256 32 := broadcastInDim S16x64x64x256 ![] bcast_S_S16x64x64x256 (constantI S_ 32 1#32)
  let v13 : IVec S16x64x64x256 32 := subi v2 v12
  select v11 v13 v2

/-- jnp's floor remainder of every word of `x` by the scalar word `d` (a zero divisor replaced by one): the truncating
    remainder, plus the divisor where it is not zero and its sign differs from the divisor's. -/
def floorRem (x : IVec S16x64x64x256 32) (d : IVec S_ 32) : IVec S16x64x64x256 32 :=
  let v1 : IVec S_ 1 := cmpi .eq d (constantI S_ 32 0#32)
  let v2 : IVec S_ 32 := select v1 (constantI S_ 32 1#32) d
  let v3 : IVec S16x64x64x256 32 := broadcastInDim S16x64x64x256 ![] bcast_S_S16x64x64x256 v2
  let v4 : IVec S16x64x64x256 32 := Host.remsi x v3
  let v5 : IVec S16x64x64x256 32 := broadcastInDim S16x64x64x256 ![] bcast_S_S16x64x64x256 (constantI S_ 32 0#32)
  let v6 : IVec S16x64x64x256 1 := cmpi .ne v4 v5
  let v7 : IVec S16x64x64x256 32 := broadcastInDim S16x64x64x256 ![] bcast_S_S16x64x64x256 (constantI S_ 32 0#32)
  let v8 : IVec S16x64x64x256 1 := cmpi .slt v4 v7
  let v9 : IVec S_ 1 := cmpi .slt v2 (constantI S_ 32 0#32)
  let v10 : IVec S16x64x64x256 1 := broadcastInDim S16x64x64x256 ![] bcast_S_S16x64x64x256 v9
  let v11 : IVec S16x64x64x256 1 := cmpi .ne v8 v10
  let v12 : IVec S16x64x64x256 1 := andi v11 v6
  let v13 : IVec S16x64x64x256 32 := broadcastInDim S16x64x64x256 ![] bcast_S_S16x64x64x256 v2
  let v14 : IVec S16x64x64x256 32 := addi v4 v13
  select v12 v14 v4

/-- The row coordinate of every update: its index word floor-divided by 128 * 256. -/
def rowArr (mask : IVec S16x64x64x256 32) : IVec S16x64x64x256 32 := floorDiv mask (constantI S_ 32 32768#32)

/-- The column coordinate of every update: its index word floor-divided by 256, then the floor remainder by 128. -/
def colArr (mask : IVec S16x64x64x256 32) : IVec S16x64x64x256 32 :=
  floorRem (floorDiv mask (constantI S_ 32 256#32)) (constantI S_ 32 128#32)

/-- The batch coordinate of every update, wrapped by 16 where negative (it never is). -/
def batchArr : IVec S16x64x64x256 32 :=
  let v4 : IVec S16x1x1x1 32 := shapeCast S16x1x1x1 (iotaInDim S16 32 0) shapeCasts_S16_S16x1x1x1
  let v7 : IVec S16x1x1x1 32 := broadcastInDim S16x1x1x1 ![] bcast_S_S16x1x1x1 (constantI S_ 32 0#32)
  let v8 : IVec S16x1x1x1 1 := cmpi .slt v4 v7
  let v9 : IVec S16x1x1x1 32 := broadcastInDim S16x1x1x1 ![] bcast_S_S16x1x1x1 (constantI S_ 32 16#32)
  let v10 : IVec S16x1x1x1 32 := addi v4 v9
  let v11 : IVec S16x1x1x1 32 := select v8 v10 v4
  broadcastInDim S16x64x64x256 ![0, 1, 2, 3] bcast_S16x1x1x1_S16x64x64x256_0_1_2_3 v11

/-- The channel coordinate of every update, wrapped by 256 where negative (it never is). -/
def chanArr : IVec S16x64x64x256 32 :=
  let v5 : IVec S256 32 := iotaInDim S256 32 0
  let v22 : IVec S256 32 := broadcastInDim S256 ![] bcast_S_S256 (constantI S_ 32 0#32)
  let v23 : IVec S256 1 := cmpi .slt v5 v22
  let v24 : IVec S256 32 := broadcastInDim S256 ![] bcast_S_S256 (constantI S_ 32 256#32)
  let v25 : IVec S256 32 := addi v5 v24
  let v26 : IVec S256 32 := select v23 v25 v5
  broadcastInDim S16x64x64x256 ![3] bcast_S256_S16x64x64x256_3 v26

/-- A coordinate array wrapped by 128 where negative: NumPy's rule for a negative index on an axis of length 128. -/
def wrap128 (v : IVec S16x64x64x256 32) : IVec S16x64x64x256 32 :=
  let z : IVec S16x64x64x256 32 := broadcastInDim S16x64x64x256 ![] bcast_S_S16x64x64x256 (constantI S_ 32 0#32)
  let lt : IVec S16x64x64x256 1 := cmpi .slt v z
  let n : IVec S16x64x64x256 32 := broadcastInDim S16x64x64x256 ![] bcast_S_S16x64x64x256 (constantI S_ 32 128#32)
  select lt (addi v n) v

/-- A coordinate array with a last axis of length one added. -/
def col1 (v : IVec S16x64x64x256 32) : IVec S16x64x64x256x1 32 :=
  broadcastInDim S16x64x64x256x1 ![0, 1, 2, 3] bcast_S16x64x64x256_S16x64x64x256x1_0_1_2_3 v

/-- The scatter's index array: for every update its (batch, row, column, channel). -/
def refIdx (mask : IVec S16x64x64x256 32) : IVec S16x64x64x256x4 32 :=
  concatenate S16x64x64x256x4 4
    [⟨S16x64x64x256x1, col1 batchArr⟩, ⟨S16x64x64x256x1, col1 (wrap128 (rowArr mask))⟩,
     ⟨S16x64x64x256x1, col1 (wrap128 (colArr mask))⟩, ⟨S16x64x64x256x1, col1 chanArr⟩]
    concatenates_S16x64x64x256x1_S16x64x64x256x1_S16x64x64x256x1_S16x64x64x256x1_S16x64x64x256x4_d4

/-- The reference's result: the zero array with every update added at the output index its coordinates name. -/
def refOut (upd : FVec F S16x64x64x256 .f32) (mask : IVec S16x64x64x256 32) : FVec F S16x128x128x256 .f32 :=
  Host.scatterAdd scatter_S16x128x128x256_S16x64x64x256x4_S16x64x64x256_n_0123_0123_4
    (broadcastInDim S16x128x128x256 ![] bcast_S_S16x128x128x256 (constant S_ .f32 0x00000000#32)) (refIdx mask) upd

end Cert.ReferenceIdeal.RefTerm

end
-- ==== Proof.RefRun.lean ====
/-
  The reference's run: its program is a straight line of array operations (the helper functions' bodies taken at their
  calls), so every execution ends with the result buffer at the operations' composed term of the arguments, which is the
  reference's pure term, and the arguments unchanged. The composed term is read stage by stage: each call's result over
  what the buffers held before the call, then @main's own lines over the calls' results.
-/
import proofs.«422130_j38568806318557_3_alg».proof.Proof.RefTerm
import proofs.«422130_j38568806318557_3_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The first call's operations: the divisor 128 * 256, then jnp's floor division of the index words by it. -/
abbrev opsA : List (HloOp τ sig (Elt F)) :=
  [ StableHlo.nullary main_c (constantI S_ 32 32768#32),
    StableHlo.TRef.unary (.of main_c : StableHlo.TRef sig ⟨S_, .i32⟩) main_call0.v0 id,
    StableHlo.TRef.unary main_call0.v0 main_call0.v1 (broadcastInDim S16x64x64x256 ![] bcast_S_S16x64x64x256),
    StableHlo.TRef.binary (.of main_arg1 : StableHlo.TRef sig ⟨S16x64x64x256, .i32⟩) main_call0.v1 main_call0.v2 Host.divsi,
    StableHlo.TRef.unary (.of main_arg1 : StableHlo.TRef sig ⟨S16x64x64x256, .i32⟩) main_call0.v3 signi,
    StableHlo.TRef.unary main_call0.v0 main_call0.v4 signi,
    StableHlo.TRef.unary main_call0.v4 main_call0.v5 (broadcastInDim S16x64x64x256 ![] bcast_S_S16x64x64x256),
    StableHlo.TRef.binary main_call0.v3 main_call0.v5 main_call0.v6 (cmpi .ne),
    StableHlo.TRef.unary main_call0.v0 main_call0.v7 (broadcastInDim S16x64x64x256 ![] bcast_S_S16x64x64x256),
    StableHlo.TRef.binary (.of main_arg1 : StableHlo.TRef sig ⟨S16x64x64x256, .i32⟩) main_call0.v7 main_call0.v8 Host.remsi,
    StableHlo.TRef.nullary main_call0.c (constantI S_ 32 0#32),
    StableHlo.TRef.unary main_call0.c main_call0.v9 (broadcastInDim S16x64x64x256 ![] bcast_S_S16x64x64x256),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S16x64x64x256 ![] bcast_S_S16x64x64x256),
    StableHlo.TRef.binary main_call0.v2 main_call0.v12 main_call0.v13 subi,
    StableHlo.TRef.ternary main_call0.v11 main_call0.v13 main_call0.v2 main_call0.call0.v0 select ]

/-- The second call's operations: the divisor 256, then the floor division of the index words by it. -/
abbrev opsB : List (HloOp τ sig (Elt F)) :=
  [ StableHlo.nullary main_c_0 (constantI S_ 32 256#32),
    StableHlo.TRef.unary (.of main_c_0 : StableHlo.TRef sig ⟨S_, .i32⟩) main_call1.v0 id,
    StableHlo.TRef.unary main_call1.v0 main_call1.v1 (broadcastInDim S16x64x64x256 ![] bcast_S_S16x64x64x256),
    StableHlo.TRef.binary (.of main_arg1 : StableHlo.TRef sig ⟨S16x64x64x256, .i32⟩) main_call1.v1 main_call1.v2 Host.divsi,
    StableHlo.TRef.unary (.of main_arg1 : StableHlo.TRef sig ⟨S16x64x64x256, .i32⟩) main_call1.v3 signi,
    StableHlo.TRef.unary main_call1.v0 main_call1.v4 signi,
    StableHlo.TRef.unary main_call1.v4 main_call1.v5 (broadcastInDim S16x64x64x256 ![] bcast_S_S16x64x64x256),
    StableHlo.TRef.binary main_call1.v3 main_call1.v5 main_call1.v6 (cmpi .ne),
    StableHlo.TRef.unary main_call1.v0 main_call1.v7 (broadcastInDim S16x64x64x256 ![] bcast_S_S16x64x64x256),
    StableHlo.TRef.binary (.of main_arg1 : StableHlo.TRef sig ⟨S16x64x64x256, .i32⟩) main_call1.v7 main_call1.v8 Host.remsi,
    StableHlo.TRef.nullary main_call1.c (constantI S_ 32 0#32),
    StableHlo.TRef.unary main_call1.c main_call1.v9 (broadcastInDim S16x64x64x256 ![] bcast_S_S16x64x64x256),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S16x64x64x256 ![] bcast_S_S16x64x64x256),
    StableHlo.TRef.binary main_call1.v2 main_call1.v12 main_call1.v13 subi,
    StableHlo.TRef.ternary main_call1.v11 main_call1.v13 main_call1.v2 main_call1.call0.v0 select ]

/-- The third call's operations: the divisor 128, then the floor remainder of the second quotient by it. -/
abbrev opsC : List (HloOp τ sig (Elt F)) :=
  [ StableHlo.nullary main_c_1 (constantI S_ 32 128#32),
    StableHlo.TRef.unary (.of main_c_1 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S16x64x64x256 ![] bcast_S_S16x64x64x256),
    StableHlo.TRef.binary (.of main_v1 : StableHlo.TRef sig ⟨S16x64x64x256, .i32⟩) main_call2.v3 main_call2.v4 Host.remsi,
    StableHlo.TRef.nullary main_call2.c_1 (constantI S_ 32 0#32),
    StableHlo.TRef.unary main_call2.c_1 main_call2.v5 (broadcastInDim S16x64x64x256 ![] bcast_S_S16x64x64x256),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S16x64x64x256 ![] bcast_S_S16x64x64x256),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S16x64x64x256 ![] bcast_S_S16x64x64x256),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S16x64x64x256 ![] bcast_S_S16x64x64x256),
    StableHlo.TRef.binary main_call2.v4 main_call2.v13 main_call2.v14 addi,
    StableHlo.TRef.ternary main_call2.v12 main_call2.v14 main_call2.v4 main_call2.v15 select ]

/-- @main's own operations after the calls, up to the four coordinate arrays with a last axis of length one: the batch
    and channel coordinates, the zero array, and the wraps of negative coordinates. -/
abbrev opsD : List (HloOp τ sig (Elt F)) :=
  [ StableHlo.nullary main_v3 (iotaInDim S16 32 0),
    StableHlo.reshape main_v3 main_v4 rfl shapeCasts_S16_S16x1x1x1,
    StableHlo.nullary main_v5 (iotaInDim S256 32 0),
    StableHlo.nullary main_cst (constant S_ .f32 0x00000000#32),
    StableHlo.unary main_cst main_v6 (broadcastInDim S16x128x128x256 ![] bcast_S_S16x128x128x256 : (⟨S_, .f32⟩ : BufTy).Contents (Elt F) → (⟨S16x128x128x256, .f32⟩ : BufTy).Contents (Elt F)),
    StableHlo.nullary main_c_2 (constantI S_ 32 0#32),
    StableHlo.unary main_c_2 main_v7 (broadcastInDim S16x1x1x1 ![] bcast_S_S16x1x1x1 : (⟨S_, .i32⟩ : BufTy).Contents (Elt F) → (⟨S16x1x1x1, .i32⟩ : BufTy).Contents (Elt F)),
    StableHlo.binary main_v4 main_v7 main_v8 (cmpi .slt : (⟨S16x1x1x1, .i32⟩ : BufTy).Contents (Elt F) → (⟨S16x1x1x1, .i32⟩ : BufTy).Contents (Elt F) → (⟨S16x1x1x1, .i1⟩ : BufTy).Contents (Elt F)),
    StableHlo.nullary main_c_3 (constantI S_ 32 16#32),
    StableHlo.unary main_c_3 main_v9 (broadcastInDim S16x1x1x1 ![] bcast_S_S16x1x1x1 : (⟨S_, .i32⟩ : BufTy).Contents (Elt F) → (⟨S16x1x1x1, .i32⟩ : BufTy).Contents (Elt F)),
    StableHlo.binary main_v4 main_v9 main_v10 (addi : (⟨S16x1x1x1, .i32⟩ : BufTy).Contents (Elt F) → (⟨S16x1x1x1, .i32⟩ : BufTy).Contents (Elt F) → (⟨S16x1x1x1, .i32⟩ : BufTy).Contents (Elt F)),
    StableHlo.ternary main_v8 main_v10 main_v4 main_v11 (select : (⟨S16x1x1x1, .i1⟩ : BufTy).Contents (Elt F) → (⟨S16x1x1x1, .i32⟩ : BufTy).Contents (Elt F) → (⟨S16x1x1x1, .i32⟩ : BufTy).Contents (Elt F) → (⟨S16x1x1x1, .i32⟩ : BufTy).Contents (Elt F)),
    StableHlo.nullary main_c_4 (constantI S_ 32 0#32),
    StableHlo.unary main_c_4 main_v12 (broadcastInDim S16x64x64x256 ![] bcast_S_S16x64x64x256 : (⟨S_, .i32⟩ : BufTy).Contents (Elt F) → (⟨S16x64x64x256, .i32⟩ : BufTy).Contents (Elt F)),
    StableHlo.binary main_v0 main_v12 main_v13 (cmpi .slt : (⟨S16x64x64x256, .i32⟩ : BufTy).Contents (Elt F) → (⟨S16x64x64x256, .i32⟩ : BufTy).Contents (Elt F) → (⟨S16x64x64x256, .i1⟩ : BufTy).Contents (Elt F)),
    StableHlo.nullary main_c_5 (constantI S_ 32 128#32),
    StableHlo.unary main_c_5 main_v14 (broadcastInDim S16x64x64x256 ![] bcast_S_S16x64x64x256 : (⟨S_, .i32⟩ : BufTy).Contents (Elt F) → (⟨S16x64x64x256, .i32⟩ : BufTy).Contents (Elt F)),
    StableHlo.binary main_v0 main_v14 main_v15 (addi : (⟨S16x64x64x256, .i32⟩ : BufTy).Contents (Elt F) → (⟨S16x64x64x256, .i32⟩ : BufTy).Contents (Elt F) → (⟨S16x64x64x256, .i32⟩ : BufTy).Contents (Elt F)),
    StableHlo.ternary main_v13 main_v15 main_v0 main_v16 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    StableHlo.nullary main_c_6 (constantI S_ 32 0#32),
    StableHlo.unary main_c_6 main_v17 (broadcastInDim S16x64x64x256 ![] bcast_S_S16x64x64x256 : (⟨S_, .i32⟩ : BufTy).Contents (Elt F) → (⟨S16x64x64x256, .i32⟩ : BufTy).Contents (Elt F)),
    StableHlo.binary main_v2 main_v17 main_v18 (cmpi .slt : (⟨S16x64x64x256, .i32⟩ : BufTy).Contents (Elt F) → (⟨S16x64x64x256, .i32⟩ : BufTy).Contents (Elt F) → (⟨S16x64x64x256, .i1⟩ : BufTy).Contents (Elt F)),
    StableHlo.nullary main_c_7 (constantI S_ 32 128#32),
    StableHlo.unary main_c_7 main_v19 (broadcastInDim S16x64x64x256 ![] bcast_S_S16x64x64x256 : (⟨S_, .i32⟩ : BufTy).Contents (Elt F) → (⟨S16x64x64x256, .i32⟩ : BufTy).Contents (Elt F)),
    StableHlo.binary main_v2 main_v19 main_v20 (addi : (⟨S16x64x64x256, .i32⟩ : BufTy).Contents (Elt F) → (⟨S16x64x64x256, .i32⟩ : BufTy).Contents (Elt F) → (⟨S16x64x64x256, .i32⟩ : BufTy).Contents (Elt F)),
    StableHlo.ternary main_v18 main_v20 main_v2 main_v21 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    StableHlo.nullary main_c_8 (constantI S_ 32 0#32),
    StableHlo.unary main_c_8 main_v22 (broadcastInDim S256 ![] bcast_S_S256 : (⟨S_, .i32⟩ : BufTy).Contents (Elt F) → (⟨S256, .i32⟩ : BufTy).Contents (Elt F)),
    StableHlo.binary main_v5 main_v22 main_v23 (cmpi .slt : (⟨S256, .i32⟩ : BufTy).Contents (Elt F) → (⟨S256, .i32⟩ : BufTy).Contents (Elt F) → (⟨S256, .i1⟩ : BufTy).Contents (Elt F)),
    StableHlo.nullary main_c_9 (constantI S_ 32 256#32),
    StableHlo.unary main_c_9 main_v24 (broadcastInDim S256 ![] bcast_S_S256 : (⟨S_, .i32⟩ : BufTy).Contents (Elt F) → (⟨S256, .i32⟩ : BufTy).Contents (Elt F)),
    StableHlo.binary main_v5 main_v24 main_v25 (addi : (⟨S256, .i32⟩ : BufTy).Contents (Elt F) → (⟨S256, .i32⟩ : BufTy).Contents (Elt F) → (⟨S256, .i32⟩ : BufTy).Contents (Elt F)),
    StableHlo.ternary main_v23 main_v25 main_v5 main_v26 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v11 main_v27 (broadcastInDim S16x64x64x256 ![0, 1, 2, 3] bcast_S16x1x1x1_S16x64x64x256_0_1_2_3 : (⟨S16x1x1x1, .i32⟩ : BufTy).Contents (Elt F) → (⟨S16x64x64x256, .i32⟩ : BufTy).Contents (Elt F)),
    StableHlo.unary main_v26 main_v28 (broadcastInDim S16x64x64x256 ![3] bcast_S256_S16x64x64x256_3 : (⟨S256, .i32⟩ : BufTy).Contents (Elt F) → (⟨S16x64x64x256, .i32⟩ : BufTy).Contents (Elt F)),
    StableHlo.unary main_v27 main_v29 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    StableHlo.unary main_v16 main_v30 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    StableHlo.unary main_v21 main_v31 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    StableHlo.unary main_v28 main_v32 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)) ]

/-- @main's last two operations: the stacking of the four coordinate arrays and the scatter-add into the zero array. -/
abbrev opsE : List (HloOp τ sig (Elt F)) :=
  [ StableHlo.nary ![main_v29, main_v30, main_v31, main_v32] main_v33 (fun u => concatenate S16x64x64x256x4 4 [⟨S16x64x64x256x1, u 0⟩, ⟨S16x64x64x256x1, u 1⟩, ⟨S16x64x64x256x1, u 2⟩, ⟨S16x64x64x256x1, u 3⟩] concatenates_S16x64x64x256x1_S16x64x64x256x1_S16x64x64x256x1_S16x64x64x256x1_S16x64x64x256x4_d4),
    StableHlo.ternary main_v6 main_v33 main_arg0 main_v34 ((fun x i u => Host.scatterAdd scatter_S16x128x128x256_S16x64x64x256x4_S16x64x64x256_n_0123_0123_4 x i u) : (⟨S16x128x128x256, .f32⟩ : BufTy).Contents (Elt F) → (⟨S16x64x64x256x4, .i32⟩ : BufTy).Contents (Elt F) → (⟨S16x64x64x256, .f32⟩ : BufTy).Contents (Elt F) → (⟨S16x128x128x256, .f32⟩ : BufTy).Contents (Elt F)) ]

/-- @main's 99 operations in order, the calls unfolded: each helper function's lines stand at its call, over that
    call's buffers. -/
abbrev ops : List (HloOp τ sig (Elt F)) :=
  [ StableHlo.nullary main_c (constantI S_ 32 32768#32),
    StableHlo.TRef.unary (.of main_c : StableHlo.TRef sig ⟨S_, .i32⟩) main_call0.v0 id,
    StableHlo.TRef.unary main_call0.v0 main_call0.v1 (broadcastInDim S16x64x64x256 ![] bcast_S_S16x64x64x256),
    StableHlo.TRef.binary (.of main_arg1 : StableHlo.TRef sig ⟨S16x64x64x256, .i32⟩) main_call0.v1 main_call0.v2 Host.divsi,
    StableHlo.TRef.unary (.of main_arg1 : StableHlo.TRef sig ⟨S16x64x64x256, .i32⟩) main_call0.v3 signi,
    StableHlo.TRef.unary main_call0.v0 main_call0.v4 signi,
    StableHlo.TRef.unary main_call0.v4 main_call0.v5 (broadcastInDim S16x64x64x256 ![] bcast_S_S16x64x64x256),
    StableHlo.TRef.binary main_call0.v3 main_call0.v5 main_call0.v6 (cmpi .ne),
    StableHlo.TRef.unary main_call0.v0 main_call0.v7 (broadcastInDim S16x64x64x256 ![] bcast_S_S16x64x64x256),
    StableHlo.TRef.binary (.of main_arg1 : StableHlo.TRef sig ⟨S16x64x64x256, .i32⟩) main_call0.v7 main_call0.v8 Host.remsi,
    StableHlo.TRef.nullary main_call0.c (constantI S_ 32 0#32),
    StableHlo.TRef.unary main_call0.c main_call0.v9 (broadcastInDim S16x64x64x256 ![] bcast_S_S16x64x64x256),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S16x64x64x256 ![] bcast_S_S16x64x64x256),
    StableHlo.TRef.binary main_call0.v2 main_call0.v12 main_call0.v13 subi,
    StableHlo.TRef.ternary main_call0.v11 main_call0.v13 main_call0.v2 main_call0.call0.v0 select,
    StableHlo.nullary main_c_0 (constantI S_ 32 256#32),
    StableHlo.TRef.unary (.of main_c_0 : StableHlo.TRef sig ⟨S_, .i32⟩) main_call1.v0 id,
    StableHlo.TRef.unary main_call1.v0 main_call1.v1 (broadcastInDim S16x64x64x256 ![] bcast_S_S16x64x64x256),
    StableHlo.TRef.binary (.of main_arg1 : StableHlo.TRef sig ⟨S16x64x64x256, .i32⟩) main_call1.v1 main_call1.v2 Host.divsi,
    StableHlo.TRef.unary (.of main_arg1 : StableHlo.TRef sig ⟨S16x64x64x256, .i32⟩) main_call1.v3 signi,
    StableHlo.TRef.unary main_call1.v0 main_call1.v4 signi,
    StableHlo.TRef.unary main_call1.v4 main_call1.v5 (broadcastInDim S16x64x64x256 ![] bcast_S_S16x64x64x256),
    StableHlo.TRef.binary main_call1.v3 main_call1.v5 main_call1.v6 (cmpi .ne),
    StableHlo.TRef.unary main_call1.v0 main_call1.v7 (broadcastInDim S16x64x64x256 ![] bcast_S_S16x64x64x256),
    StableHlo.TRef.binary (.of main_arg1 : StableHlo.TRef sig ⟨S16x64x64x256, .i32⟩) main_call1.v7 main_call1.v8 Host.remsi,
    StableHlo.TRef.nullary main_call1.c (constantI S_ 32 0#32),
    StableHlo.TRef.unary main_call1.c main_call1.v9 (broadcastInDim S16x64x64x256 ![] bcast_S_S16x64x64x256),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S16x64x64x256 ![] bcast_S_S16x64x64x256),
    StableHlo.TRef.binary main_call1.v2 main_call1.v12 main_call1.v13 subi,
    StableHlo.TRef.ternary main_call1.v11 main_call1.v13 main_call1.v2 main_call1.call0.v0 select,
    StableHlo.nullary main_c_1 (constantI S_ 32 128#32),
    StableHlo.TRef.unary (.of main_c_1 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S16x64x64x256 ![] bcast_S_S16x64x64x256),
    StableHlo.TRef.binary (.of main_v1 : StableHlo.TRef sig ⟨S16x64x64x256, .i32⟩) main_call2.v3 main_call2.v4 Host.remsi,
    StableHlo.TRef.nullary main_call2.c_1 (constantI S_ 32 0#32),
    StableHlo.TRef.unary main_call2.c_1 main_call2.v5 (broadcastInDim S16x64x64x256 ![] bcast_S_S16x64x64x256),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S16x64x64x256 ![] bcast_S_S16x64x64x256),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S16x64x64x256 ![] bcast_S_S16x64x64x256),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S16x64x64x256 ![] bcast_S_S16x64x64x256),
    StableHlo.TRef.binary main_call2.v4 main_call2.v13 main_call2.v14 addi,
    StableHlo.TRef.ternary main_call2.v12 main_call2.v14 main_call2.v4 main_call2.v15 select,
    StableHlo.nullary main_v3 (iotaInDim S16 32 0),
    StableHlo.reshape main_v3 main_v4 rfl shapeCasts_S16_S16x1x1x1,
    StableHlo.nullary main_v5 (iotaInDim S256 32 0),
    StableHlo.nullary main_cst (constant S_ .f32 0x00000000#32),
    StableHlo.unary main_cst main_v6 (broadcastInDim S16x128x128x256 ![] bcast_S_S16x128x128x256 : (⟨S_, .f32⟩ : BufTy).Contents (Elt F) → (⟨S16x128x128x256, .f32⟩ : BufTy).Contents (Elt F)),
    StableHlo.nullary main_c_2 (constantI S_ 32 0#32),
    StableHlo.unary main_c_2 main_v7 (broadcastInDim S16x1x1x1 ![] bcast_S_S16x1x1x1 : (⟨S_, .i32⟩ : BufTy).Contents (Elt F) → (⟨S16x1x1x1, .i32⟩ : BufTy).Contents (Elt F)),
    StableHlo.binary main_v4 main_v7 main_v8 (cmpi .slt : (⟨S16x1x1x1, .i32⟩ : BufTy).Contents (Elt F) → (⟨S16x1x1x1, .i32⟩ : BufTy).Contents (Elt F) → (⟨S16x1x1x1, .i1⟩ : BufTy).Contents (Elt F)),
    StableHlo.nullary main_c_3 (constantI S_ 32 16#32),
    StableHlo.unary main_c_3 main_v9 (broadcastInDim S16x1x1x1 ![] bcast_S_S16x1x1x1 : (⟨S_, .i32⟩ : BufTy).Contents (Elt F) → (⟨S16x1x1x1, .i32⟩ : BufTy).Contents (Elt F)),
    StableHlo.binary main_v4 main_v9 main_v10 (addi : (⟨S16x1x1x1, .i32⟩ : BufTy).Contents (Elt F) → (⟨S16x1x1x1, .i32⟩ : BufTy).Contents (Elt F) → (⟨S16x1x1x1, .i32⟩ : BufTy).Contents (Elt F)),
    StableHlo.ternary main_v8 main_v10 main_v4 main_v11 (select : (⟨S16x1x1x1, .i1⟩ : BufTy).Contents (Elt F) → (⟨S16x1x1x1, .i32⟩ : BufTy).Contents (Elt F) → (⟨S16x1x1x1, .i32⟩ : BufTy).Contents (Elt F) → (⟨S16x1x1x1, .i32⟩ : BufTy).Contents (Elt F)),
    StableHlo.nullary main_c_4 (constantI S_ 32 0#32),
    StableHlo.unary main_c_4 main_v12 (broadcastInDim S16x64x64x256 ![] bcast_S_S16x64x64x256 : (⟨S_, .i32⟩ : BufTy).Contents (Elt F) → (⟨S16x64x64x256, .i32⟩ : BufTy).Contents (Elt F)),
    StableHlo.binary main_v0 main_v12 main_v13 (cmpi .slt : (⟨S16x64x64x256, .i32⟩ : BufTy).Contents (Elt F) → (⟨S16x64x64x256, .i32⟩ : BufTy).Contents (Elt F) → (⟨S16x64x64x256, .i1⟩ : BufTy).Contents (Elt F)),
    StableHlo.nullary main_c_5 (constantI S_ 32 128#32),
    StableHlo.unary main_c_5 main_v14 (broadcastInDim S16x64x64x256 ![] bcast_S_S16x64x64x256 : (⟨S_, .i32⟩ : BufTy).Contents (Elt F) → (⟨S16x64x64x256, .i32⟩ : BufTy).Contents (Elt F)),
    StableHlo.binary main_v0 main_v14 main_v15 (addi : (⟨S16x64x64x256, .i32⟩ : BufTy).Contents (Elt F) → (⟨S16x64x64x256, .i32⟩ : BufTy).Contents (Elt F) → (⟨S16x64x64x256, .i32⟩ : BufTy).Contents (Elt F)),
    StableHlo.ternary main_v13 main_v15 main_v0 main_v16 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    StableHlo.nullary main_c_6 (constantI S_ 32 0#32),
    StableHlo.unary main_c_6 main_v17 (broadcastInDim S16x64x64x256 ![] bcast_S_S16x64x64x256 : (⟨S_, .i32⟩ : BufTy).Contents (Elt F) → (⟨S16x64x64x256, .i32⟩ : BufTy).Contents (Elt F)),
    StableHlo.binary main_v2 main_v17 main_v18 (cmpi .slt : (⟨S16x64x64x256, .i32⟩ : BufTy).Contents (Elt F) → (⟨S16x64x64x256, .i32⟩ : BufTy).Contents (Elt F) → (⟨S16x64x64x256, .i1⟩ : BufTy).Contents (Elt F)),
    StableHlo.nullary main_c_7 (constantI S_ 32 128#32),
    StableHlo.unary main_c_7 main_v19 (broadcastInDim S16x64x64x256 ![] bcast_S_S16x64x64x256 : (⟨S_, .i32⟩ : BufTy).Contents (Elt F) → (⟨S16x64x64x256, .i32⟩ : BufTy).Contents (Elt F)),
    StableHlo.binary main_v2 main_v19 main_v20 (addi : (⟨S16x64x64x256, .i32⟩ : BufTy).Contents (Elt F) → (⟨S16x64x64x256, .i32⟩ : BufTy).Contents (Elt F) → (⟨S16x64x64x256, .i32⟩ : BufTy).Contents (Elt F)),
    StableHlo.ternary main_v18 main_v20 main_v2 main_v21 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    StableHlo.nullary main_c_8 (constantI S_ 32 0#32),
    StableHlo.unary main_c_8 main_v22 (broadcastInDim S256 ![] bcast_S_S256 : (⟨S_, .i32⟩ : BufTy).Contents (Elt F) → (⟨S256, .i32⟩ : BufTy).Contents (Elt F)),
    StableHlo.binary main_v5 main_v22 main_v23 (cmpi .slt : (⟨S256, .i32⟩ : BufTy).Contents (Elt F) → (⟨S256, .i32⟩ : BufTy).Contents (Elt F) → (⟨S256, .i1⟩ : BufTy).Contents (Elt F)),
    StableHlo.nullary main_c_9 (constantI S_ 32 256#32),
    StableHlo.unary main_c_9 main_v24 (broadcastInDim S256 ![] bcast_S_S256 : (⟨S_, .i32⟩ : BufTy).Contents (Elt F) → (⟨S256, .i32⟩ : BufTy).Contents (Elt F)),
    StableHlo.binary main_v5 main_v24 main_v25 (addi : (⟨S256, .i32⟩ : BufTy).Contents (Elt F) → (⟨S256, .i32⟩ : BufTy).Contents (Elt F) → (⟨S256, .i32⟩ : BufTy).Contents (Elt F)),
    StableHlo.ternary main_v23 main_v25 main_v5 main_v26 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v11 main_v27 (broadcastInDim S16x64x64x256 ![0, 1, 2, 3] bcast_S16x1x1x1_S16x64x64x256_0_1_2_3 : (⟨S16x1x1x1, .i32⟩ : BufTy).Contents (Elt F) → (⟨S16x64x64x256, .i32⟩ : BufTy).Contents (Elt F)),
    StableHlo.unary main_v26 main_v28 (broadcastInDim S16x64x64x256 ![3] bcast_S256_S16x64x64x256_3 : (⟨S256, .i32⟩ : BufTy).Contents (Elt F) → (⟨S16x64x64x256, .i32⟩ : BufTy).Contents (Elt F)),
    StableHlo.unary main_v27 main_v29 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    StableHlo.unary main_v16 main_v30 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    StableHlo.unary main_v21 main_v31 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    StableHlo.unary main_v28 main_v32 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    StableHlo.nary ![main_v29, main_v30, main_v31, main_v32] main_v33 (fun u => concatenate S16x64x64x256x4 4 [⟨S16x64x64x256x1, u 0⟩, ⟨S16x64x64x256x1, u 1⟩, ⟨S16x64x64x256x1, u 2⟩, ⟨S16x64x64x256x1, u 3⟩] concatenates_S16x64x64x256x1_S16x64x64x256x1_S16x64x64x256x1_S16x64x64x256x1_S16x64x64x256x4_d4),
    StableHlo.ternary main_v6 main_v33 main_arg0 main_v34 ((fun x i u => Host.scatterAdd scatter_S16x128x128x256_S16x64x64x256x4_S16x64x64x256_n_0123_0123_4 x i u) : (⟨S16x128x128x256, .f32⟩ : BufTy).Contents (Elt F) → (⟨S16x64x64x256x4, .i32⟩ : BufTy).Contents (Elt F) → (⟨S16x64x64x256, .f32⟩ : BufTy).Contents (Elt F) → (⟨S16x128x128x256, .f32⟩ : BufTy).Contents (Elt F)) ]

/-- The line cut at the calls' ends and before the stacking. -/
theorem ops_split : (ops : List (HloOp τ sig (Elt F))) = opsA ++ (opsB ++ (opsC ++ (opsD ++ opsE))) := rfl

/-- The fold over two lines run one after the other is the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The first call: the row coordinate -/

/-- After the first call its result holds the floor division of the index words by 128 * 256. -/
theorem A_v0 (V : Valuation τ sig (Elt F)) :
    after opsA V (main_v0 : DevRef τ sig) = RefTerm.rowArr (V (main_arg1 : DevRef τ sig)) := by
  after_results_simp
  rfl

theorem A_arg0 (V : Valuation τ sig (Elt F)) : after opsA V (main_arg0 : DevRef τ sig) = V (main_arg0 : DevRef τ sig) := by
  after_results_simp
theorem A_arg1 (V : Valuation τ sig (Elt F)) : after opsA V (main_arg1 : DevRef τ sig) = V (main_arg1 : DevRef τ sig) := by
  after_results_simp

/-! ## The second call: the quotient by 256 -/

/-- After the second call its result holds the floor division of the index words by 256. -/
theorem B_v1 (V : Valuation τ sig (Elt F)) :
    after opsB V (main_v1 : DevRef τ sig) = RefTerm.floorDiv (V (main_arg1 : DevRef τ sig)) (constantI S_ 32 256#32) := by
  after_results_simp
  rfl

theorem B_v0 (V : Valuation τ sig (Elt F)) : after opsB V (main_v0 : DevRef τ sig) = V (main_v0 : DevRef τ sig) := by
  after_results_simp
theorem B_arg0 (V : Valuation τ sig (Elt F)) : after opsB V (main_arg0 : DevRef τ sig) = V (main_arg0 : DevRef τ sig) := by
  after_results_simp

/-! ## The third call: the column coordinate -/

/-- After the third call its result holds the floor remainder by 128 of what the second call's result held. -/
theorem C_v2 (V : Valuation τ sig (Elt F)) :
    after opsC V (main_v2 : DevRef τ sig) = RefTerm.floorRem (V (main_v1 : DevRef τ sig)) (constantI S_ 32 128#32) := by
  after_results_simp
  rfl

theorem C_v0 (V : Valuation τ sig (Elt F)) : after opsC V (main_v0 : DevRef τ sig) = V (main_v0 : DevRef τ sig) := by
  after_results_simp
theorem C_arg0 (V : Valuation τ sig (Elt F)) : after opsC V (main_arg0 : DevRef τ sig) = V (main_arg0 : DevRef τ sig) := by
  after_results_simp

/-! ## @main's own lines: the four coordinate arrays and the zero array -/

/-- The zero array the updates are added into. -/
theorem D_v6 (V : Valuation τ sig (Elt F)) :
    after opsD V (main_v6 : DevRef τ sig)
      = broadcastInDim S16x128x128x256 ![] bcast_S_S16x128x128x256 (constant S_ .f32 0x00000000#32) := by
  after_results_simp

/-- The batch coordinates, a last axis of length one added. -/
theorem D_v29 (V : Valuation τ sig (Elt F)) : after opsD V (main_v29 : DevRef τ sig) = RefTerm.col1 RefTerm.batchArr := by
  after_results_simp
  rfl

/-- The row coordinates the first call left, wrapped by 128 where negative. -/
theorem D_v30 (V : Valuation τ sig (Elt F)) :
    after opsD V (main_v30 : DevRef τ sig) = RefTerm.col1 (RefTerm.wrap128 (V (main_v0 : DevRef τ sig))) := by
  after_results_simp
  rfl

/-- The column coordinates the third call left, wrapped by 128 where negative. -/
theorem D_v31 (V : Valuation τ sig (Elt F)) :
    after opsD V (main_v31 : DevRef τ sig) = RefTerm.col1 (RefTerm.wrap128 (V (main_v2 : DevRef τ sig))) := by
  after_results_simp
  rfl

/-- The channel coordinates. -/
theorem D_v32 (V : Valuation τ sig (Elt F)) : after opsD V (main_v32 : DevRef τ sig) = RefTerm.col1 RefTerm.chanArr := by
  after_results_simp
  rfl

theorem D_arg0 (V : Valuation τ sig (Elt F)) : after opsD V (main_arg0 : DevRef τ sig) = V (main_arg0 : DevRef τ sig) := by
  after_results_simp

/-! ## The stacking and the scatter-add -/

/-- After the last two lines the result holds the scatter-add, into what the zero array's buffer held, of the updates
    at the stacking of what the four coordinate buffers held. -/
theorem E_v34 (V : Valuation τ sig (Elt F)) :
    after opsE V (main_v34 : DevRef τ sig)
      = Host.scatterAdd scatter_S16x128x128x256_S16x64x64x256x4_S16x64x64x256_n_0123_0123_4 (V (main_v6 : DevRef τ sig))
          (concatenate S16x64x64x256x4 4
            [⟨S16x64x64x256x1, V (main_v29 : DevRef τ sig)⟩, ⟨S16x64x64x256x1, V (main_v30 : DevRef τ sig)⟩,
             ⟨S16x64x64x256x1, V (main_v31 : DevRef τ sig)⟩, ⟨S16x64x64x256x1, V (main_v32 : DevRef τ sig)⟩]
            concatenates_S16x64x64x256x1_S16x64x64x256x1_S16x64x64x256x1_S16x64x64x256x1_S16x64x64x256x4_d4)
          (V (main_arg0 : DevRef τ sig)) := by
  after_results
  rfl

/-! ## The whole line -/

/-- The fold of the whole line at the result buffer is the reference's pure term of the two arguments: each stage's
    result read at the stage before it. -/
theorem out_eq (V : Valuation τ sig (Elt F)) :
    after ops V (main_v34 : DevRef τ sig) = RefTerm.refOut (V (main_arg0 : DevRef τ sig)) (V (main_arg1 : DevRef τ sig)) := by
  rw [ops_split, after_append, after_append, after_append, after_append, E_v34, D_v6, D_v29, D_v30, D_v31, D_v32, D_arg0,
    C_v0, B_v0, A_v0, C_v2, B_v1, A_arg1, C_arg0, B_arg0, A_arg0]
  rfl

/-- No operation of the line writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp

set_option maxRecDepth 8192 in
set_option maxHeartbeats 4000000 in
/-- @main is that straight line: the helper functions' bodies taken at their calls, both sides are one chain of steps
    by computation (sequencing reassociates as it runs). -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., reshape_bufs_sub ..,
    nullary_bufs_sub .., nullary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., unary_bufs_sub .., unary_bufs_sub .., unary_bufs_sub ..,
    unary_bufs_sub .., nary_bufs_sub .., ternary_bufs_sub ..⟩

/-- Every weakly fair execution of the reference terminates with its result at the pure term of its arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
          = RefTerm.refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v34).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefDecode.lean ====
/-
  Where an update lands in the reference. For a non-negative index word the floor division by 128 * 256 is the shift by
  15 and the floor remainder by 128 of the floor division by 256 is the low seven bits of the shift by 8; neither is
  negative, so no coordinate is wrapped; the batch and channel coordinates are the update's own. The scatter therefore
  adds the update (b', h, w, f') at the output index (b, Y, X, f) exactly when b' = b, f' = f and the word's row and
  column are Y and X (a row of 128 or more lands outside the array and is dropped).
-/
import proofs.«422130_j38568806318557_3_alg».proof.Proof.RefTerm
import proofs.«422130_j38568806318557_3_alg».proof.Proof.Spec
import Idealize.ShloMosaic.Lib.ValueIdx
import Idealize.ShloMosaic.Lib.Pipeline.Value

noncomputable section

namespace Cert.ReferenceIdeal.RefDecode

open Cert.ReferenceIdeal Idealize.ShloMosaic Idealize.ShloMosaic.ValueIdx Cert.Unpool

variable [Facts]
open Facts₀ Facts

/-! ## Words: a non-negative word divided by a positive one

For a word `x` with its sign bit clear and a divisor `d` that is positive as a signed word, the signed quotient and
remainder are the unsigned ones, the signs of dividend and divisor agree unless `x` is zero (and then the remainder is
zero), so jnp's correction never fires: the floor division is `x / d` and the floor remainder `x % d`. -/

/-- A word with its sign bit clear is below `2 ^ 31`. -/
theorem toNat_lt_of_msb_false {m : BitVec 32} (hm : m.msb = false) : m.toNat < 2147483648 := by
  have := BitVec.msb_eq_false_iff_two_mul_lt.1 hm; omega

/-- A word below `2 ^ 31` has its sign bit clear. -/
theorem msb_false_of_toNat_lt {m : BitVec 32} (h : m.toNat < 2147483648) : m.msb = false :=
  BitVec.msb_eq_false_iff_two_mul_lt.2 (by omega)

/-- A positive divisor is not at the signed division's corner. -/
theorem not_sdivCorner {x d : BitVec 32} (hd0 : d ≠ 0#32) (hd : d.msb = false) : ¬IntOp.SDivCorner x d := by
  rintro (h | ⟨-, h⟩)
  · exact hd0 h
  · rw [h] at hd; revert hd; decide

/-- The signed quotient of a non-negative word by a positive one is the unsigned quotient. -/
theorem divsi_host_of_nonneg {x d : BitVec 32} (hx : x.msb = false) (hd0 : d ≠ 0#32) (hd : d.msb = false) :
    IntOp.divsi .host x d = x / d := by
  unfold IntOp.divsi
  rw [if_neg (not_sdivCorner hd0 hd), BitVec.sdiv_eq, hx, hd]
  rfl

/-- The signed remainder of a non-negative word by a positive one is the unsigned remainder. -/
theorem remsi_host_of_nonneg {x d : BitVec 32} (hx : x.msb = false) (hd0 : d ≠ 0#32) (hd : d.msb = false) :
    IntOp.remsi .host x d = x % d := by
  unfold IntOp.remsi
  rw [if_neg (not_sdivCorner hd0 hd), BitVec.srem_eq, hx, hd]

/-- jnp's floor division, one word: no correction for a non-negative dividend and a positive divisor. -/
theorem floorDiv_word {x d : BitVec 32} (hx : x.msb = false) (hd0 : d ≠ 0#32) (hd : d.msb = false) :
    Scalar.select
      (IntOp.andi
        (IntOp.cmpi .ne (if x = 0 then (0 : BitVec 32) else if x.msb then -1 else 1)
          (if d = 0 then (0 : BitVec 32) else if d.msb then -1 else 1))
        (IntOp.cmpi .ne (IntOp.remsi .host x d) 0#32))
      (IntOp.subi (IntOp.divsi .host x d) 1#32) (IntOp.divsi .host x d) = x / d := by
  rw [divsi_host_of_nonneg hx hd0 hd, remsi_host_of_nonneg hx hd0 hd, hx, hd]
  have hc : IntOp.andi
        (IntOp.cmpi .ne (if x = 0 then (0 : BitVec 32) else if false = true then -1 else 1)
          (if d = 0 then (0 : BitVec 32) else if false = true then -1 else 1))
        (IntOp.cmpi .ne (x % d) 0#32) = 0#1 := by
    by_cases h0 : x = 0#32
    · subst h0
      simp [IntOp.andi, IntOp.cmpi]
    · simp [IntOp.andi, IntOp.cmpi, h0, hd0]
  rw [hc]
  exact select_zero _ _

/-- A non-negative word is not below zero: the wrap of a negative coordinate leaves it. -/
theorem wrap_word {x n : BitVec 32} (hx : x.msb = false) :
    Scalar.select (IntOp.cmpi .slt x 0#32) (IntOp.addi x n) x = x := by
  have hc : IntOp.cmpi .slt x 0#32 = 0#1 := by
    simp [IntOp.cmpi, BitVec.slt_zero_eq_msb, hx]
  rw [hc]
  exact select_zero _ _

/-- jnp's floor remainder by 128, one word: no correction for a non-negative dividend. -/
theorem floorRem_word {x : BitVec 32} (hx : x.msb = false) :
    Scalar.select
      (IntOp.andi
        (IntOp.cmpi .ne
          (IntOp.cmpi .slt (IntOp.remsi .host x (Scalar.select (IntOp.cmpi .eq 128#32 0#32) 1#32 128#32)) 0#32)
          (IntOp.cmpi .slt (Scalar.select (IntOp.cmpi .eq 128#32 0#32) 1#32 128#32) 0#32))
        (IntOp.cmpi .ne (IntOp.remsi .host x (Scalar.select (IntOp.cmpi .eq 128#32 0#32) 1#32 128#32)) 0#32))
      (IntOp.addi (IntOp.remsi .host x (Scalar.select (IntOp.cmpi .eq 128#32 0#32) 1#32 128#32))
        (Scalar.select (IntOp.cmpi .eq 128#32 0#32) 1#32 128#32))
      (IntOp.remsi .host x (Scalar.select (IntOp.cmpi .eq 128#32 0#32) 1#32 128#32)) = x % 128#32 := by
  have h2 : Scalar.select (IntOp.cmpi .eq 128#32 0#32) 1#32 128#32 = 128#32 := by decide
  rw [h2, remsi_host_of_nonneg hx (by decide) (by decide)]
  have hr : (x % 128#32).msb = false := by
    apply msb_false_of_toNat_lt
    rw [BitVec.toNat_umod]
    have : (128#32 : BitVec 32).toNat = 128 := rfl
    rw [this]; omega
  have hc1 : IntOp.cmpi .slt (x % 128#32) 0#32 = 0#1 := by
    simp [IntOp.cmpi, BitVec.slt_zero_eq_msb, hr]
  have hc2 : IntOp.cmpi .slt 128#32 0#32 = 0#1 := by decide
  rw [hc1, hc2]
  have hc : IntOp.andi (IntOp.cmpi .ne 0#1 0#1) (IntOp.cmpi .ne (x % 128#32) 0#32) = 0#1 := by
    simp [IntOp.andi, IntOp.cmpi]
  rw [hc]
  exact select_zero _ _

/-- The row of a non-negative word is its quotient by 128 * 256. -/
theorem rowOf_eq {m : BitVec 32} (hm : m.msb = false) : rowOf m = m / 32768#32 := by
  apply BitVec.eq_of_toNat_eq
  unfold rowOf IntOp.shrsi
  rw [if_pos (by decide), BitVec.sshiftRight_eq', BitVec.sshiftRight_eq_of_msb_false hm, BitVec.toNat_ushiftRight,
    BitVec.toNat_udiv, Nat.shiftRight_eq_div_pow]
  rfl

/-- The column of a non-negative word is its quotient by 256, modulo 128. -/
theorem colOf_eq {m : BitVec 32} (hm : m.msb = false) : colOf m = (m / 256#32) % 128#32 := by
  apply BitVec.eq_of_toNat_eq
  unfold colOf IntOp.andi IntOp.shrsi
  rw [if_pos (by decide), BitVec.sshiftRight_eq', BitVec.sshiftRight_eq_of_msb_false hm, BitVec.toNat_and,
    BitVec.toNat_ushiftRight, BitVec.toNat_umod, BitVec.toNat_udiv, Nat.shiftRight_eq_div_pow]
  exact Nat.and_two_pow_sub_one_eq_mod _ 7

/-- The quotient of a non-negative word by any word is no larger, so it is non-negative. -/
theorem msb_udiv {m d : BitVec 32} (hm : m.msb = false) : (m / d).msb = false := by
  apply msb_false_of_toNat_lt
  rw [BitVec.toNat_udiv]
  have := toNat_lt_of_msb_false hm
  exact lt_of_le_of_lt (Nat.div_le_self _ _) this

/-- The row of a non-negative word is non-negative. -/
theorem rowOf_msb {m : BitVec 32} (hm : m.msb = false) : (rowOf m).msb = false := by
  rw [rowOf_eq hm]; exact msb_udiv hm

/-- The column of a non-negative word is below 128, so it is non-negative. -/
theorem colOf_msb {m : BitVec 32} (hm : m.msb = false) : (colOf m).msb = false := by
  rw [colOf_eq hm]
  apply msb_false_of_toNat_lt
  rw [BitVec.toNat_umod]
  have : (128#32 : BitVec 32).toNat = 128 := rfl
  rw [this]; omega

/-! ## The reference's coordinate arrays at an index -/

/-- A natural below 256 is a non-negative word. -/
theorem msb_ofNat_small {n : Nat} (hn : n < 256) : (BitVec.ofNat 32 n).msb = false := by
  apply msb_false_of_toNat_lt
  rw [BitVec.toNat_ofNat]; omega

/-- jnp's floor division of a non-negative word by a positive constant, at an index. -/
theorem floorDiv_apply (x : IVec S16x64x64x256 32) (d : BitVec 32) (i : S16x64x64x256.Idx)
    (hx : (x i).msb = false) (hd0 : d ≠ 0#32) (hd : d.msb = false) :
    RefTerm.floorDiv x (constantI S_ 32 d) i = x i / d :=
  floorDiv_word hx hd0 hd

/-- jnp's floor remainder of a non-negative word by 128, at an index. -/
theorem floorRem_apply (x : IVec S16x64x64x256 32) (i : S16x64x64x256.Idx) (hx : (x i).msb = false) :
    RefTerm.floorRem x (constantI S_ 32 128#32) i = x i % 128#32 :=
  floorRem_word hx

/-- The row array at an index is the word's row. -/
theorem rowArr_apply (mask : IVec S16x64x64x256 32) (i : S16x64x64x256.Idx) (hm : (mask i).msb = false) :
    RefTerm.rowArr mask i = rowOf (mask i) := by
  rw [rowOf_eq hm]; exact floorDiv_apply mask _ i hm (by decide) (by decide)

/-- The column array at an index is the word's column. -/
theorem colArr_apply (mask : IVec S16x64x64x256 32) (i : S16x64x64x256.Idx) (hm : (mask i).msb = false) :
    RefTerm.colArr mask i = colOf (mask i) := by
  have hq : RefTerm.floorDiv mask (constantI S_ 32 256#32) i = mask i / 256#32 :=
    floorDiv_apply mask _ i hm (by decide) (by decide)
  rw [colOf_eq hm]
  unfold RefTerm.colArr
  rw [floorRem_apply _ i (by rw [hq]; exact msb_udiv hm), hq]

/-- The wrap by 128 leaves a non-negative coordinate. -/
theorem wrap128_apply (v : IVec S16x64x64x256 32) (i : S16x64x64x256.Idx) (hv : (v i).msb = false) :
    RefTerm.wrap128 v i = v i :=
  wrap_word hv

/-- The batch array at an index is the batch coordinate. -/
theorem batchArr_apply (b' : Fin 16) (h w : Fin 64) (f' : Fin 256) :
    RefTerm.batchArr (ix4 b' h w f') = BitVec.ofNat 32 b'.val := by
  have h4 : shapeCast S16x1x1x1 (iotaInDim S16 32 0) shapeCasts_S16_S16x1x1x1 (ix4 b' (0 : Fin 1) (0 : Fin 1) (0 : Fin 1))
      = BitVec.ofNat 32 b'.val :=
    shapeCast_apply (iotaInDim S16 32 0) shapeCasts_S16_S16x1x1x1 (ix4 b' (0 : Fin 1) (0 : Fin 1) (0 : Fin 1)) (ix1 b')
      (by rw [Shape.rowMajor_val_one, Shape.rowMajor_val_four]; show b'.val = ((b'.val * 1 + 0) * 1 + 0) * 1 + 0; omega)
  unfold RefTerm.batchArr
  refine (broadcastInDim_apply _ bcast_S16x1x1x1_S16x64x64x256_0_1_2_3 _ (ix4 b' h w f')
    (ix4 b' (0 : Fin 1) (0 : Fin 1) (0 : Fin 1)) ?_).trans ?_
  · intro a
    match a with
    | ⟨0, _⟩ => rfl
    | ⟨1, _⟩ => rfl
    | ⟨2, _⟩ => rfl
    | ⟨3, _⟩ => rfl
  · show Scalar.select
        (IntOp.cmpi .slt (shapeCast S16x1x1x1 (iotaInDim S16 32 0) shapeCasts_S16_S16x1x1x1 (ix4 b' (0 : Fin 1) (0 : Fin 1) (0 : Fin 1))) 0#32)
        (IntOp.addi (shapeCast S16x1x1x1 (iotaInDim S16 32 0) shapeCasts_S16_S16x1x1x1 (ix4 b' (0 : Fin 1) (0 : Fin 1) (0 : Fin 1))) 16#32)
        (shapeCast S16x1x1x1 (iotaInDim S16 32 0) shapeCasts_S16_S16x1x1x1 (ix4 b' (0 : Fin 1) (0 : Fin 1) (0 : Fin 1))) = _
    rw [h4]; exact wrap_word (msb_ofNat_small (by have := b'.isLt; omega))

/-- The channel array at an index is the channel coordinate. -/
theorem chanArr_apply (b' : Fin 16) (h w : Fin 64) (f' : Fin 256) :
    RefTerm.chanArr (ix4 b' h w f') = BitVec.ofNat 32 f'.val := by
  unfold RefTerm.chanArr
  refine (broadcastInDim_apply _ bcast_S256_S16x64x64x256_3 _ (ix4 b' h w f') (ix1 f') ?_).trans ?_
  · intro a
    match a with
    | ⟨0, _⟩ => rfl
  · show Scalar.select (IntOp.cmpi .slt (BitVec.ofNat 32 f'.val) 0#32) (IntOp.addi (BitVec.ofNat 32 f'.val) 256#32)
        (BitVec.ofNat 32 f'.val) = _
    exact wrap_word (msb_ofNat_small f'.isLt)

/-- A coordinate array under its added unit axis reads the array. -/
theorem col1_apply (v : IVec S16x64x64x256 32) (b' : Fin 16) (h w : Fin 64) (f' : Fin 256) :
    RefTerm.col1 v (ix5 b' h w f' (0 : Fin 1)) = v (ix4 b' h w f') := by
  refine broadcastInDim_apply _ bcast_S16x64x64x256_S16x64x64x256x1_0_1_2_3 v (ix5 b' h w f' (0 : Fin 1)) (ix4 b' h w f') ?_
  intro a
  match a with
  | ⟨0, _⟩ => rfl
  | ⟨1, _⟩ => rfl
  | ⟨2, _⟩ => rfl
  | ⟨3, _⟩ => rfl

/-- The coordinates of a piece's index off the stacking axis are the stacked index's. -/
theorem piece_coords (b' : Fin 16) (h w : Fin 64) (f' : Fin 256) (k : Fin 4)
    (hr : S16x64x64x256x1.rank = S16x64x64x256x4.rank) (b : Fin S16x64x64x256x1.rank) (hb : b.cast hr ≠ (4 : Fin 5)) :
    ((ix5 b' h w f' (0 : Fin 1)) b).val = ((ix5 b' h w f' k) (b.cast hr)).val := by
  match b with
  | ⟨0, _⟩ => rfl
  | ⟨1, _⟩ => rfl
  | ⟨2, _⟩ => rfl
  | ⟨3, _⟩ => rfl
  | ⟨4, _⟩ => exact absurd rfl hb

/-- Component 0 of an update's index vector: its batch coordinate. -/
theorem refIdx_apply0 (mask : IVec S16x64x64x256 32) (b' : Fin 16) (h w : Fin 64) (f' : Fin 256) :
    RefTerm.refIdx mask (ix5 b' h w f' (0 : Fin 4)) = RefTerm.batchArr (ix4 b' h w f') :=
  (concatenate_apply_piece _ _ _ (ix5 b' h w f' (0 : Fin 4)) 0 (by simp) S16x64x64x256x1 (RefTerm.col1 RefTerm.batchArr)
    rfl rfl 0 rfl (ix5 b' h w f' (0 : Fin 1)) (piece_coords b' h w f' 0 rfl) rfl).trans (col1_apply _ b' h w f')

/-- Component 1: its wrapped row. -/
theorem refIdx_apply1 (mask : IVec S16x64x64x256 32) (b' : Fin 16) (h w : Fin 64) (f' : Fin 256) :
    RefTerm.refIdx mask (ix5 b' h w f' (1 : Fin 4)) = RefTerm.wrap128 (RefTerm.rowArr mask) (ix4 b' h w f') :=
  (concatenate_apply_piece _ _ _ (ix5 b' h w f' (1 : Fin 4)) 1 (by simp) S16x64x64x256x1
    (RefTerm.col1 (RefTerm.wrap128 (RefTerm.rowArr mask)))
    rfl rfl 1 rfl (ix5 b' h w f' (0 : Fin 1)) (piece_coords b' h w f' 1 rfl) rfl).trans (col1_apply _ b' h w f')

/-- Component 2: its wrapped column. -/
theorem refIdx_apply2 (mask : IVec S16x64x64x256 32) (b' : Fin 16) (h w : Fin 64) (f' : Fin 256) :
    RefTerm.refIdx mask (ix5 b' h w f' (2 : Fin 4)) = RefTerm.wrap128 (RefTerm.colArr mask) (ix4 b' h w f') :=
  (concatenate_apply_piece _ _ _ (ix5 b' h w f' (2 : Fin 4)) 2 (by simp) S16x64x64x256x1
    (RefTerm.col1 (RefTerm.wrap128 (RefTerm.colArr mask)))
    rfl rfl 2 rfl (ix5 b' h w f' (0 : Fin 1)) (piece_coords b' h w f' 2 rfl) rfl).trans (col1_apply _ b' h w f')

/-- Component 3: its channel. -/
theorem refIdx_apply3 (mask : IVec S16x64x64x256 32) (b' : Fin 16) (h w : Fin 64) (f' : Fin 256) :
    RefTerm.refIdx mask (ix5 b' h w f' (3 : Fin 4)) = RefTerm.chanArr (ix4 b' h w f') :=
  (concatenate_apply_piece _ _ _ (ix5 b' h w f' (3 : Fin 4)) 3 (by simp) S16x64x64x256x1 (RefTerm.col1 RefTerm.chanArr)
    rfl rfl 3 rfl (ix5 b' h w f' (0 : Fin 1)) (piece_coords b' h w f' 3 rfl) rfl).trans (col1_apply _ b' h w f')

/-- The four components of the index vector of the update at (b', h, w, f'), for non-negative index words. -/
theorem refIdx_words (mask : IVec S16x64x64x256 32) (hpos : ∀ j, (mask j).msb = false)
    (b' : Fin 16) (h w : Fin 64) (f' : Fin 256) :
    RefTerm.refIdx mask (ix5 b' h w f' (0 : Fin 4)) = BitVec.ofNat 32 b'.val
      ∧ RefTerm.refIdx mask (ix5 b' h w f' (1 : Fin 4)) = rowOf (mask (ix4 b' h w f'))
      ∧ RefTerm.refIdx mask (ix5 b' h w f' (2 : Fin 4)) = colOf (mask (ix4 b' h w f'))
      ∧ RefTerm.refIdx mask (ix5 b' h w f' (3 : Fin 4)) = BitVec.ofNat 32 f'.val := by
  have hm := hpos (ix4 b' h w f')
  have hr := rowArr_apply mask (ix4 b' h w f') hm
  have hc := colArr_apply mask (ix4 b' h w f') hm
  refine ⟨?_, ?_, ?_, ?_⟩
  · rw [refIdx_apply0, batchArr_apply]
  · rw [refIdx_apply1, wrap128_apply _ _ (by rw [hr]; exact rowOf_msb hm), hr]
  · rw [refIdx_apply2, wrap128_apply _ _ (by rw [hc]; exact colOf_msb hm), hc]
  · rw [refIdx_apply3, chanArr_apply]

/-! ## Where an update lands -/

/-- A scatter's result index is a given index exactly when, on every axis, the start plus the window coordinate is that
    index's coordinate. -/
theorem resultIdx?_eq_some_iff {s si u : Shape} (d : ScatterDims s si u) {w : Nat} (j : u.Idx) (idx : IVec si w) (r : s.Idx) :
    d.resultIdx? j idx = some r ↔ ∀ a, d.start j idx a + (d.window j a : Int) = ((r a).val : Int) := by
  unfold ScatterDims.resultIdx?
  constructor
  · intro H
    split at H
    · next hh =>
      have e := Option.some.inj H
      intro a
      have ha : (d.start j idx a + (d.window j a : Int)).toNat = (r a).val := congrArg (fun q => (q a).val) e
      have := hh a
      omega
    · exact absurd H (by simp)
  · intro H
    have hh : ∀ a, 0 ≤ d.start j idx a + (d.window j a : Int) ∧ d.start j idx a + (d.window j a : Int) < s.size a := by
      intro a; have := H a; have := (r a).isLt; omega
    rw [dif_pos hh]
    congr 1
    funext a; apply Fin.ext
    show (d.start j idx a + (d.window j a : Int)).toNat = (r a).val
    have := H a; omega

/-- Every axis of a rank-4 array is one of 0, 1, 2, 3. -/
theorem mem_axes (a : Fin 4) : a ∈ ([0, 1, 2, 3] : List (Fin 4)) := by revert a; decide

/-- Every operand axis is named by the scatter's map from index components to operand axes. -/
theorem mem_sdto (a : Fin 4) :
    a ∈ scatter_S16x128x128x256_S16x64x64x256x4_S16x64x64x256_n_0123_0123_4.scatterDimsToOperandDims := by
  show a ∈ ([0, 1, 2, 3] : List (Fin 4))
  revert a; decide

/-- Operand axis `a` is named by component `a`. -/
theorem idxOf_sdto (a : Fin 4) :
    List.idxOf a scatter_S16x128x128x256_S16x64x64x256x4_S16x64x64x256_n_0123_0123_4.scatterDimsToOperandDims = a.val := by
  show List.idxOf a ([0, 1, 2, 3] : List (Fin 4)) = a.val
  revert a; decide

/-- Every operand axis is an inserted one, so the window coordinate is zero. -/
theorem window_eq_zero (j : S16x64x64x256.Idx) (a : Fin 4) :
    scatter_S16x128x128x256_S16x64x64x256x4_S16x64x64x256_n_0123_0123_4.window j a = 0 := by
  unfold ScatterDims.window
  rw [dif_neg]
  intro hmem
  have h2 : a ∉ ([0, 1, 2, 3] : List (Fin 4)) := of_decide_eq_true (List.mem_filter.1 hmem).2
  exact h2 (mem_axes a)

/-- The index at which the update at (b', h, w, f') reads component `c` of its index vector. -/
theorem siIdx_eq (b' : Fin 16) (h w : Fin 64) (f' : Fin 256) (c : Fin 4)
    (hc : c.val < scatter_S16x128x128x256_S16x64x64x256x4_S16x64x64x256_n_0123_0123_4.scatterDimsToOperandDims.length) :
    scatter_S16x128x128x256_S16x64x64x256x4_S16x64x64x256_n_0123_0123_4.siIdx (ix4 b' h w f') ⟨c.val, hc⟩
      = ix5 b' h w f' c := by
  funext a; refine Fin.ext ?_
  match a with
  | ⟨0, _⟩ => rfl
  | ⟨1, _⟩ => rfl
  | ⟨2, _⟩ => rfl
  | ⟨3, _⟩ => rfl
  | ⟨4, _⟩ => rfl

/-- The start on operand axis `a` is component `a` of the update's index vector, read signed. -/
theorem start_eq (idx : IVec S16x64x64x256x4 32) (b' : Fin 16) (h w : Fin 64) (f' : Fin 256) (a : Fin 4) :
    scatter_S16x128x128x256_S16x64x64x256x4_S16x64x64x256_n_0123_0123_4.start (ix4 b' h w f') idx a
      = (idx (ix5 b' h w f' a)).toInt := by
  unfold ScatterDims.start
  rw [dif_pos (mem_sdto a)]
  have hlt : a.val < scatter_S16x128x128x256_S16x64x64x256x4_S16x64x64x256_n_0123_0123_4.scatterDimsToOperandDims.length := by
    rw [← idxOf_sdto a]; exact List.idxOf_lt_length_iff.2 (mem_sdto a)
  have e : (⟨List.idxOf a scatter_S16x128x128x256_S16x64x64x256x4_S16x64x64x256_n_0123_0123_4.scatterDimsToOperandDims,
      List.idxOf_lt_length_iff.2 (mem_sdto a)⟩ :
        Fin scatter_S16x128x128x256_S16x64x64x256x4_S16x64x64x256_n_0123_0123_4.scatterDimsToOperandDims.length)
      = ⟨a.val, hlt⟩ := Fin.ext (idxOf_sdto a)
  rw [e, siIdx_eq]

/-- The update at (b', h, w, f') lands on the output index (b, Y, X, f) exactly when the four components of its index
    vector, read signed, are b, Y, X and f. -/
theorem lands_iff (idx : IVec S16x64x64x256x4 32) (b' : Fin 16) (h w : Fin 64) (f' : Fin 256)
    (b : Fin 16) (Y X : Fin 128) (f : Fin 256) :
    scatter_S16x128x128x256_S16x64x64x256x4_S16x64x64x256_n_0123_0123_4.resultIdx? (ix4 b' h w f') idx = some (ix4 b Y X f)
      ↔ ((idx (ix5 b' h w f' (0 : Fin 4))).toInt = (b.val : Int) ∧ (idx (ix5 b' h w f' (1 : Fin 4))).toInt = (Y.val : Int)
        ∧ (idx (ix5 b' h w f' (2 : Fin 4))).toInt = (X.val : Int) ∧ (idx (ix5 b' h w f' (3 : Fin 4))).toInt = (f.val : Int)) := by
  rw [resultIdx?_eq_some_iff]
  constructor
  · intro H
    have H0 : (idx (ix5 b' h w f' (0 : Fin 4))).toInt + ((0 : Nat) : Int) = (b.val : Int) := by
      have := H (0 : Fin 4); rw [start_eq, window_eq_zero] at this; exact this
    have H1 : (idx (ix5 b' h w f' (1 : Fin 4))).toInt + ((0 : Nat) : Int) = (Y.val : Int) := by
      have := H (1 : Fin 4); rw [start_eq, window_eq_zero] at this; exact this
    have H2 : (idx (ix5 b' h w f' (2 : Fin 4))).toInt + ((0 : Nat) : Int) = (X.val : Int) := by
      have := H (2 : Fin 4); rw [start_eq, window_eq_zero] at this; exact this
    have H3 : (idx (ix5 b' h w f' (3 : Fin 4))).toInt + ((0 : Nat) : Int) = (f.val : Int) := by
      have := H (3 : Fin 4); rw [start_eq, window_eq_zero] at this; exact this
    refine ⟨?_, ?_, ?_, ?_⟩ <;> omega
  · rintro ⟨H0, H1, H2, H3⟩ a
    rw [start_eq, window_eq_zero]
    match a with
    | ⟨0, _⟩ => show (idx (ix5 b' h w f' (0 : Fin 4))).toInt + ((0 : Nat) : Int) = (b.val : Int); omega
    | ⟨1, _⟩ => show (idx (ix5 b' h w f' (1 : Fin 4))).toInt + ((0 : Nat) : Int) = (Y.val : Int); omega
    | ⟨2, _⟩ => show (idx (ix5 b' h w f' (2 : Fin 4))).toInt + ((0 : Nat) : Int) = (X.val : Int); omega
    | ⟨3, _⟩ => show (idx (ix5 b' h w f' (3 : Fin 4))).toInt + ((0 : Nat) : Int) = (f.val : Int); omega

/-- A natural below 256 as a word, read signed, is itself. -/
theorem toInt_ofNat_small {n : Nat} (hn : n < 256) : (BitVec.ofNat 32 n).toInt = (n : Int) := by
  rw [BitVec.toInt_eq_toNat_of_msb (msb_ofNat_small hn), BitVec.toNat_ofNat]
  have : n % 2 ^ 32 = n := Nat.mod_eq_of_lt (by omega)
  rw [this]

/-- A word read signed is a natural below 256 exactly when it is that natural's word. -/
theorem toInt_eq_small_iff (r : BitVec 32) {n : Nat} (hn : n < 256) : r.toInt = (n : Int) ↔ r = BitVec.ofNat 32 n := by
  constructor
  · intro H; exact BitVec.eq_of_toInt_eq (by rw [toInt_ofNat_small hn]; exact H)
  · intro H; rw [H]; exact toInt_ofNat_small hn

/-- Two naturals below 256 are the same word, read signed, exactly when they are equal. -/
theorem toInt_ofNat_eq_iff {m n : Nat} (hm : m < 256) : (BitVec.ofNat 32 m).toInt = (n : Int) ↔ m = n := by
  rw [toInt_ofNat_small hm]; omega

/-- The scatter's result index of the update at (b', h, w, f') is the output index (b, Y, X, f) exactly when the batch
    entry and the channel agree and the update's index word lands on row Y, column X. -/
theorem resultIdx_iff (mask : IVec S16x64x64x256 32) (hpos : ∀ j, (mask j).msb = false)
    (b' : Fin 16) (h w : Fin 64) (f' : Fin 256) (b : Fin 16) (Y X : Fin 128) (f : Fin 256) :
    scatter_S16x128x128x256_S16x64x64x256x4_S16x64x64x256_n_0123_0123_4.resultIdx? (ix4 b' h w f') (RefTerm.refIdx mask)
        = some (ix4 b Y X f)
      ↔ (b' = b ∧ f' = f ∧ Lands (mask (ix4 b' h w f')) Y X) := by
  obtain ⟨h0, h1, h2, h3⟩ := refIdx_words mask hpos b' h w f'
  rw [lands_iff, h0, h1, h2, h3, toInt_ofNat_eq_iff (by have := b'.isLt; omega), toInt_ofNat_eq_iff f'.isLt,
    toInt_eq_small_iff _ (by have := Y.isLt; omega), toInt_eq_small_iff _ (by have := X.isLt; omega)]
  unfold Lands
  constructor
  · rintro ⟨e0, e1, e2, e3⟩; exact ⟨Fin.ext e0, Fin.ext e3, e1, e2⟩
  · rintro ⟨e0, e3, e1, e2⟩; exact ⟨congrArg Fin.val e0, e1, e2, congrArg Fin.val e3⟩

end Cert.ReferenceIdeal.RefDecode

end
-- ==== Proof.RefValue.lean ====
/-
  The reference's result is the unpooled array: the scatter adds to zero, at every output index, the updates whose
  result index is that index, and for non-negative index words those are the updates of the same batch entry and channel
  whose word decodes to the index's row and column.
-/
import proofs.«422130_j38568806318557_3_alg».proof.Proof.RefDecode
import proofs.«422130_j38568806318557_3_alg».proof.Proof.Sums
import Idealize.ShloMosaic.PureOps.Ideal.Laws

noncomputable section

open scoped BigOperators

namespace Cert.ReferenceIdeal.RefValue

open Cert.ReferenceIdeal Idealize.ShloMosaic Idealize.ShloMosaic.ValueIdx Cert.Unpool

variable [Facts]

/-- For non-negative index words the reference's pure term is the unpooled array. -/
theorem refOut_eq (upd : FVec Ideal S16x64x64x256 .f32) (mask : IVec S16x64x64x256 32) (hpos : ∀ j, (mask j).msb = false) :
    RefTerm.refOut (F := Ideal) upd mask = unpoolArr upd mask := by
  funext i
  obtain ⟨b, Y, X, f, rfl⟩ : ∃ (b : Fin 16) (Y X : Fin 128) (f : Fin 256), i = ix4 b Y X f := ⟨i 0, i 1, i 2, i 3, eq_ix4 i⟩
  show Ideal.hostScatterAdd _ _ _ _ (ix4 b Y X f) = unpool upd mask b Y X f
  unfold Ideal.hostScatterAdd unpool
  have hz : (broadcastInDim S16x128x128x256 ![] Facts₀.bcast_S_S16x128x128x256 (constant (F := Ideal) S_ .f32 0x00000000#32)) (ix4 b Y X f) = 0 :=
    Ideal.ofBits_zero_f32
  rw [hz, zero_add]
  refine (sum_filter_fix _ upd b f (fun h w => Lands (mask (ix4 b h w f)) Y X) ?_).trans rfl
  intro b' h w f'
  rw [RefDecode.resultIdx_iff mask hpos b' h w f' b Y X f]
  constructor
  · rintro ⟨rfl, rfl, hl⟩; exact ⟨rfl, rfl, hl⟩
  · rintro ⟨rfl, rfl, hl⟩; exact ⟨rfl, rfl, hl⟩

end Cert.ReferenceIdeal.RefValue

end
-- ==== Proof.PreFacts.lean ====
/-
  What the precondition says of the inputs: every update is a real number (its absolute value is below +infinity), and
  every index word is non-negative as a signed word (its sign bit is clear).
-/
import proofs.«422130_j38568806318557_3_alg».proof.Pre_finite_inputs
import proofs.«422130_j38568806318557_3_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.PreFacts

open Cert.Pre_finite_inputs Idealize.ShloMosaic

variable [Facts]

/-- A one-bit word made from a Boolean is 1 only when the Boolean is true. -/
private theorem ofBool_one (b : Bool) (h : BitVec.ofBool b = 1#1) : b = true := by
  revert h; cases b <;> decide

/-- An extended real with max(x, -x) below +infinity is neither infinity, so it is a real number:
    at -infinity the maximum is +infinity (from -x), at +infinity it is +infinity (from x). -/
private theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 (sign 0, exponent all ones, fraction 0) denotes +infinity. -/
private theorem inf_pattern : Ideal.ofBits .f32 0x7F800000#32 = ⊤ := by
  simp [Ideal.ofBits, Ideal.ieee]

/-- The float element fact: the ordered comparison |x| < +infinity holding says x is real. -/
private theorem real_of_abs_olt_inf (x : Ideal .f32)
    (h : FloatOps.cmpf (F := Ideal) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  rw [inf_pattern] at h
  exact real_of_abs_lt_top x (of_decide_eq_true (ofBool_one _ h))

/-- The integer element fact: the signed comparison x ≥ 0 is 0 ≤ x.toInt, and a word is negative as a
    signed integer exactly when its sign bit is set. -/
private theorem msb_of_sge_zero (x : BitVec 32) (h : IntOp.cmpi .sge x 0#32 = 1#1) : x.msb = false := by
  have h' : (0#32).sle x = true := ofBool_one _ h
  rw [BitVec.sle_iff_toInt_le] at h'
  rw [BitVec.msb_eq_toInt]
  simp only [BitVec.toInt_zero] at h'
  simpa using h'

/-- Under the precondition every update is real and every index word has its sign bit clear. -/
theorem of_pre (upd : FVec Ideal S16x64x64x256 .f32) (mask : IVec S16x64x64x256 32)
    (h : fn (F := Ideal) upd mask = fun _ => 1#1) :
    (∀ j, ∃ r : ℝ, upd j = (r : EReal)) ∧ (∀ j, (mask j).msb = false) := by
  -- the result has a single index (rank 0)
  haveI : Subsingleton S_.Idx := ⟨fun a b => funext fun d => d.elim0⟩
  have h0 := congrFun h ValueIdx.ix0
  dsimp only [fn, andi] at h0
  -- the final AND of two one-bit scalars is 1 only when both are; each is an AND over all elements
  obtain ⟨h1, h2⟩ := IntOp.andi_eq_one.1 h0
  constructor
  · intro j
    exact real_of_abs_olt_inf (upd j) (Host.reduce_andi_all _ _ _ _ _ h1 j)
  · intro j
    exact msb_of_sge_zero (mask j) (Host.reduce_andi_all _ _ _ _ _ h2 j)

end Cert.Pre_finite_inputs.PreFacts

end
-- ==== Proof.lean ====
/-
  Max-unpooling: every update is added into a zero array at the output position its flat index word names. The kernel
  does it on the matrix unit, per batch entry and channel block, as a product of a row-indicator matrix weighted by the
  updates with a column-indicator matrix, accumulated over 32 steps of two source rows; the reference decodes the word by
  floor division and remainder and scatters. Under the precondition (the updates are real numbers, the index words are
  non-negative) both end at the same array: at each output position, the sum of the updates of its batch entry and channel
  whose word has that position's row (the word shifted right by 15) and column (the next seven bits above bit 8).
  On the extended reals the kernel's split of an update into a rounded part and its residue is the update plus zero,
  the indicators are zero or one, and the order of summation does not matter; for a non-negative word the reference's
  floor division and remainder are the shifts, and no coordinate is wrapped. A row of 128 or more lands outside the array
  in both programs and is dropped.
  The frames of the two kernel programs are the generated ones; the reference's frame is its run with the result dropped.
  The one rewrite of the idealization, a widening after a rounding read as the identity, is its rule's statement.
-/
import proofs.«422130_j38568806318557_3_alg».proof.Defs
import proofs.«422130_j38568806318557_3_alg».proof.Proof.Gen.Kernel
import proofs.«422130_j38568806318557_3_alg».proof.Proof.Gen.Kernel.Skeleton
import proofs.«422130_j38568806318557_3_alg».proof.Proof.Gen.Kernel.Launch
import proofs.«422130_j38568806318557_3_alg».proof.Proof.Gen.Kernel.Points
import proofs.«422130_j38568806318557_3_alg».proof.Proof.Gen.Kernel.Frame
import proofs.«422130_j38568806318557_3_alg».proof.Proof.Gen.KernelIdeal
import proofs.«422130_j38568806318557_3_alg».proof.Proof.Gen.KernelIdeal.Skeleton
import proofs.«422130_j38568806318557_3_alg».proof.Proof.Gen.KernelIdeal.Launch
import proofs.«422130_j38568806318557_3_alg».proof.Proof.Gen.KernelIdeal.Points
import proofs.«422130_j38568806318557_3_alg».proof.Proof.Gen.KernelIdeal.Frame
import proofs.«422130_j38568806318557_3_alg».proof.Proof.Gen.KernelIdeal.Value
import proofs.«422130_j38568806318557_3_alg».proof.Proof.Gen.ReferenceIdeal
import proofs.«422130_j38568806318557_3_alg».proof.Proof.Gen.Pre_finite_inputs
import proofs.«422130_j38568806318557_3_alg».proof.Proof.KerValue
import proofs.«422130_j38568806318557_3_alg».proof.Proof.RefRun
import proofs.«422130_j38568806318557_3_alg».proof.Proof.RefValue
import proofs.«422130_j38568806318557_3_alg».proof.Proof.PreFacts
import Idealize.ShloMosaic.Adequacy
import Idealize.ShloMosaic.Init

noncomputable section

namespace Cert.Proof

open Idealize.ShloMosaic Idealize.SL.Sem Cert.Unpool

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization's one rewrite: a bf16 rounding widened back to f32 is the identity on the extended reals. -/
theorem preserves : Cert.preserves_Kernel_KernelIdeal := IdealRules.truncf_extf.statement _ .f32 .bf16

/-- Both programs end at the unpooled array of the arguments. -/
theorem algebraic : Cert.algebraic_KernelIdeal_ReferenceIdeal := by
  intro m ρ m' ρ' hpre hagree
  have hfacts := fun c => Cert.Pre_finite_inputs.PreFacts.of_pre _ _ (hpre c)
  refine ⟨fun c => unpoolArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KerValue.run m ρ (fun c => (hfacts c).1), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refOut_eq _ _ (hfacts c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
